-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1x2048x2048 : Shape := ⟨3, ![1, 2048, 2048]⟩
abbrev S1x1x1024x1024 : Shape := ⟨4, ![1, 1, 1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1x1x1024x1024 .f32) (main_arg5 : FVec F S1x1x1024x1024 .f32) (main_arg6 : FVec F S1x1x1024x1024 .f32) (main_arg7 : FVec F S1024 .f32) (main_arg8 : FVec F S1024 .f32) (main_arg9 : FVec F S1024 .f32) (main_v13 : IVec S_ 1) (main_v16 : IVec S1x2048x2048 1) : IVec S_ 1 :=
  let main_c_5 : IVec S_ 1 := constantI S_ 1 1#1
  let main_v17 : IVec S_ 1 := (fun x v => Host.reduce IntOp.andi x v reducesTo_S1x2048x2048_S_d0_1_2 h_S_) main_v16 main_c_5
  let main_v18 : IVec S_ 1 := andi main_v13 main_v17
  let main_v19 : FVec F S1x1x1024x1024 .f32 := Host.absf main_arg4
  let main_cst_6 : FVec F S_ .f32 := constant S_ .f32 0x7F800000#32
  let main_v20 : FVec F S1x1x1024x1024 .f32 := broadcastInDim S1x1x1024x1024 ![] bcast_S_S1x1x1024x1024 main_cst_6
  let main_v21 : IVec S1x1x1024x1024 1 := cmpf .olt main_v19 main_v20
  let main_c_7 : IVec S_ 1 := constantI S_ 1 1#1
  let main_v22 : IVec S_ 1 := (fun x v => Host.reduce IntOp.andi x v reducesTo_S1x1x1024x1024_S_d0_1_2_3 h_S_) main_v21 main_c_7
  let main_v23 : IVec S_ 1 := andi main_v18 main_v22
  let main_v24 : FVec F S1x1x1024x1024 .f32 := Host.absf main_arg5
  let main_cst_8 : FVec F S_ .f32 := constant S_ .f32 0x7F800000#32
  let main_v25 : FVec F S1x1x1024x1024 .f32 := broadcastInDim S1x1x1024x1024 ![] bcast_S_S1x1x1024x1024 main_cst_8
  let main_v26 : IVec S1x1x1024x1024 1 := cmpf .olt main_v24 main_v25
  let main_c_9 : IVec S_ 1 := constantI S_ 1 1#1
  let main_v27 : IVec S_ 1 := (fun x v => Host.reduce IntOp.andi x v reducesTo_S1x1x1024x1024_S_d0_1_2_3 h_S_) main_v26 main_c_9
  let main_v28 : IVec S_ 1 := andi main_v23 main_v27
  let main_v29 : FVec F S1x1x1024x1024 .f32 := Host.absf main_arg6
  let main_cst_10 : FVec F S_ .f32 := constant S_ .f32 0x7F800000#32
  let main_v30 : FVec F S1x1x1024x1024 .f32 := broadcastInDim S1x1x1024x1024 ![] bcast_S_S1x1x1024x1024 main_cst_10
  let main_v31 : IVec S1x1x1024x1024 1 := cmpf .olt main_v29 main_v30
  let main_c_11 : IVec S_ 1 := constantI S_ 1 1#1
  let main_v32 : IVec S_ 1 := (fun x v => Host.reduce IntOp.andi x v reducesTo_S1x1x1024x1024_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S4x2048x1024 .f32) (main_arg3 : FVec F S1x2048x2048 .f32) (main_arg4 : FVec F S1x1x1024x1024 .f32) (main_arg5 : FVec F S1x1x1024x1024 .f32) (main_arg6 : FVec F S1x1x1024x1024 .f32) (main_arg7 : FVec F S1024 .f32) (main_arg8 : FVec F S1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1x2048x2048 .f32 := Host.absf main_arg3
  let main_cst_4 : FVec F S_ .f32 := constant S_ .f32 0x7F800000#32
  let main_v15 : FVec F S1x2048x2048 .f32 := broadcastInDim S1x2048x2048 ![] bcast_S_S1x2048x2048 main_cst_4
  let main_v16 : IVec S1x2048x2048 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1x2048x2048 : Shape := ⟨3, ![1, 2048, 2048]⟩
abbrev S1x1x1024x1024 : Shape := ⟨4, ![1, 1, 1024, 1024]⟩
abbrev S1024 : Shape := ⟨1, ![1024]⟩
abbrev S1024x1024 : Shape := ⟨2, ![1024, 1024]⟩
abbrev S8192x1024 : Shape := ⟨2, ![8192, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 26
  | .vmem => 29
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x2048x2048, .f32⟩
  | .hbm, ⟨4, _⟩ => ⟨S1x1x1024x1024, .f32⟩
  | .hbm, ⟨5, _⟩ => ⟨S1x1x1024x1024, .f32⟩
  | .hbm, ⟨6, _⟩ => ⟨S1x1x1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .bf16⟩
  | .hbm, ⟨20, _⟩ => ⟨S4x2048x1024, .bf16⟩
  | .hbm, ⟨21, _⟩ => ⟨S8192x1024, .bf16⟩
  | .hbm, ⟨22, _⟩ => ⟨S4x2048x1024, .bf16⟩
  | .hbm, ⟨23, _⟩ => ⟨S8192x1024, .bf16⟩
  | .hbm, ⟨24, _⟩ => ⟨S4x2048x1024, .bf16⟩
  | .hbm, ⟨25, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x512, .f32⟩
  | .local _ .vmem, ⟨25, _⟩ => ⟨S1x512x512, .f32⟩
  | .local _ .vmem, ⟨26, _⟩ => ⟨S1x512x1024, .f32⟩
  | .local _ .vmem, ⟨27, _⟩ => ⟨S1x512x1024, .f32⟩
  | .local _ .vmem, ⟨28, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_19 : BitVec 32 := 0#32
  let v27 : BitVec 1 := Scalar.cmpi .ne v26 c0_i32_19
  v27

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, true]

abbrev stage3_4 : Fin 2 → Memref sig .tc .vmem S1x512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

class Facts₀ : Prop where
  shapeCasts_S1x1x1024x1024_S1024x1024 : S1x1x1024x1024.ShapeCasts S1024x1024
  shapeCasts_S4x2048x1024_S8192x1024 : S4x2048x1024.ShapeCasts S8192x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .bf16 = 32 ∨ (Rect.block (s := S4x2048x1024) S1x512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S4x2048x1024.size a
  hwx3_1 : ∀ i : grid3.Coords, EltTy.bits .bf16 = 32 ∨ (Rect.block (s := S4x2048x1024) S1x512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S4x2048x1024.size a
  hwx3_2 : ∀ i : grid3.Coords, EltTy.bits .bf16 = 32 ∨ (Rect.block (s := S4x2048x1024) S1x512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x512.size a ≤ S1x2048x2048.size a
  hwx3_3 : ∀ i : grid3.Coords, EltTy.bits .f32 = 32 ∨ (Rect.block (s := S1x2048x2048) S1x512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x1024.size a ≤ S4x2048x1024.size a
  hwx3_4 : ∀ i : grid3.Coords, EltTy.bits .f32 = 32 ∨ (Rect.block (s := S4x2048x1024) S1x512x1024.size (cc3_transform_4 i) (hinb3_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x512x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15) S1x512x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1x2048x2048 : Shape := ⟨3, ![1, 2048, 2048]⟩
abbrev S1x1x1024x1024 : Shape := ⟨4, ![1, 1, 1024, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S4x2048x2048 : Shape := ⟨3, ![4, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x2048x2048, .f32⟩
  | .hbm, ⟨4, _⟩ => ⟨S1x1x1024x1024, .f32⟩
  | .hbm, ⟨5, _⟩ => ⟨S1x1x1024x1024, .f32⟩
  | .hbm, ⟨6, _⟩ => ⟨S1x1x1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x1024, .f32⟩
  | .hbm, ⟨45, _⟩ => ⟨S_, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call4_cst : Ref sig .tc := ⟨.hbm, 45, rfl⟩
abbrev main_call4_v0 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  shapeCasts_S1x1x1024x1024_S1024x1024 : S1x1x1024x1024.ShapeCasts S1024x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  bcast_S_S4x2048x2048 : S_.BroadcastsInDim S4x2048x2048 (![] : Fin 0 → Fin S4x2048x2048.rank)
  bcast_S1x2048x2048_S4x2048x2048_0_1_2 : S1x2048x2048.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Proj0.lean ====
/-
  Projection call 0 of the program (the linear map, bias and relu that makes one of the three projected arrays: call 0 the queries', call 1 the keys', call 2 the values'), as one region of @main read at
  any float instance, at a PARAMETER `V`: the buffer contents the core holds when the region is entered.
  The grid has 8 points; point t stages rows [1024 t, 1024 t + 1024) of the flattened input (window 0, moving), the whole
  weight matrix and the bias row (windows 1 and 2, the same block at every point) and writes back the same rows of the
  result (window 3). The body reads the three staged blocks whole and stores one value over the whole output block, so
  what a point leaves in the output's staging buffer is a function of the three input blocks alone: `out0_3`.
  With that the region's proof data is fixed: the arrays at `V`, after each point the inputs' buffers unchanged and the
  output's at `out0_3` of the point's blocks; nothing is carried from point to point, so the region invariant is the plain
  one (the scratch and the staging buffers of the other calls at anything, the generator register at some state).
-/
import proofs.«135758_j57062935495338_1_alg».proof.Proof.Gen.Kernel.Launch
import proofs.«135758_j57062935495338_1_alg».proof.Proof.Gen.Kernel.Skeleton
import proofs.«135758_j57062935495338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window (window 0): its current staging buffer holds the point's block, for any proof data over `V`'s
    arrays whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window (window 1): fetched once, and still holding that block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window (window 2): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_m : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-- What the body leaves in the output's staging buffer, from the three input blocks: its one store. -/
def out0_3 (x0 : Vec F S1024x1024 .f32) (x1 : Vec F S1024x1024 .f32) (x2 : Vec F S1x1024 .f32) : Vec F S1024x1024 .bf16 :=
  View.canon [⟨r0_m, k0_pay1 (View.ld x0 r0_m) (View.ld x1 r0_m) (View.ld x2 r0_b)⟩]

/-- The one store covers the buffer. -/
theorem cover0_3 (p0 : Vec F S1024x1024 .bf16) (y : S1024x1024.Idx) :
    ∃ pc ∈ ([⟨r0_m, p0⟩] : List (View.Piece (Elt F) S1024x1024 .bf16)), y ∈ pc.1.set :=
  View.cover_of_tiled [⟨r0_m, p0⟩] S1024x1024.size (by rfl) y

/-! ## The body's triple -/

set_option maxHeartbeats 1000000 in
/-- On whole staging memrefs, the inputs' at contents `x0 x1 x2` and the output's at anything, the body runs to the
    continuation holding the inputs' as they were and the output's at `out0_3 x0 x1 x2`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer at its block and the output's at
    `out0_3` of the blocks; the plain region invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Proj1.lean ====
/-
  Projection call 1 of the program (the linear map, bias and relu that makes one of the three projected arrays: call 0 the queries', call 1 the keys', call 2 the values'), as one region of @main read at
  any float instance, at a PARAMETER `V`: the buffer contents the core holds when the region is entered.
  The grid has 8 points; point t stages rows [1024 t, 1024 t + 1024) of the flattened input (window 0, moving), the whole
  weight matrix and the bias row (windows 1 and 2, the same block at every point) and writes back the same rows of the
  result (window 3). The body reads the three staged blocks whole and stores one value over the whole output block, so
  what a point leaves in the output's staging buffer is a function of the three input blocks alone: `out1_3`.
  With that the region's proof data is fixed: the arrays at `V`, after each point the inputs' buffers unchanged and the
  output's at `out1_3` of the point's blocks; nothing is carried from point to point, so the region invariant is the plain
  one (the scratch and the staging buffers of the other calls at anything, the generator register at some state).
-/
import proofs.«135758_j57062935495338_1_alg».proof.Proof.Gen.Kernel.Launch
import proofs.«135758_j57062935495338_1_alg».proof.Proof.Gen.Kernel.Skeleton
import proofs.«135758_j57062935495338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window (window 0): its current staging buffer holds the point's block, for any proof data over `V`'s
    arrays whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window (window 1): fetched once, and still holding that block at every later point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window (window 2): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_m : Rect S1024x1024 := Rect.unit (s := S1024x1024) ![0, 0] S1024x1024.size inb_S1024x1024_S1024x1024_0_0
abbrev r1_b : Rect S1x1024 := Rect.unit (s := S1x1024) ![0, 0] S1x1024.size inb_S1x1024_S1x1024_0_0

/-- What the body leaves in the output's staging buffer, from the three input blocks: its one store. -/
def out1_3 (x0 : Vec F S1024x1024 .f32) (x1 : Vec F S1024x1024 .f32) (x2 : Vec F S1x1024 .f32) : Vec F S1024x1024 .bf16 :=
  View.canon [⟨r1_m, k1_pay1 (View.ld x0 r1_m) (View.ld x1 r1_m) (View.ld x2 r1_b)⟩]

/-- The one store covers the buffer. -/
theorem cover1_3 (p0 : Vec F S1024x1024 .bf16) (y : S1024x1024.Idx) :
    ∃ pc ∈ ([⟨r1_m, p0⟩] : List (View.Piece (Elt F) S1024x1024 .bf16)), y ∈ pc.1.set :=
  View.cover_of_tiled [⟨r1_m, p0⟩] S1024x1024.size (by rfl) y

/-! ## The body's triple -/

set_option maxHeartbeats 1000000 in
/-- On whole staging memrefs, the inputs' at contents `x0 x1 x2` and the output's at anything, the body runs to the
    continuation holding the inputs' as they were and the output's at `out1_3 x0 x1 x2`. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the output's at
    `out1_3` of the blocks; the plain region invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Proj2.lean ====
/-
  Projection call 2 of the program (the linear map, bias and relu that makes one of the three projected arrays: call 0 the queries', call 1 the keys', call 2 the values'), as one region of @main read at
  any float instance, at a PARAMETER `V`: the buffer contents the core holds when the region is entered.
  The grid has 8 points; point t stages rows [1024 t, 1024 t + 1024) of the flattened input (window 0, moving), the whole
  weight matrix and the bias row (windows 1 and 2, the same block at every point) and writes back the same rows of the
  result (window 3). The body reads the three staged blocks whole and stores one value over the whole output block, so
  what a point leaves in the output's staging buffer is a function of the three input blocks alone: `out2_3`.
  With that the region's proof data is fixed: the arrays at `V`, after each point the inputs' buffers unchanged and the
  output's at `out2_3` of the point's blocks; nothing is carried from point to point, so the region invariant is the plain
  one (the scratch and the staging buffers of the other calls at anything, the generator register at some state).
-/
import proofs.«135758_j57062935495338_1_alg».proof.Proof.Gen.Kernel.Launch
import proofs.«135758_j57062935495338_1_alg».proof.Proof.Gen.Kernel.Skeleton
import proofs.«135758_j57062935495338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window (window 0): its current staging buffer holds the point's block, for any proof data over `V`'s
    arrays whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window (window 1): fetched once, and still holding that block at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window (window 2): likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole block -/

abbrev r2_m : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- What the body leaves in the output's staging buffer, from the three input blocks: its one store. -/
def out2_3 (x0 : Vec F S1024x1024 .f32) (x1 : Vec F S1024x1024 .f32) (x2 : Vec F S1x1024 .f32) : Vec F S1024x1024 .bf16 :=
  View.canon [⟨r2_m, k2_pay1 (View.ld x0 r2_m) (View.ld x1 r2_m) (View.ld x2 r2_b)⟩]

/-- The one store covers the buffer. -/
theorem cover2_3 (p0 : Vec F S1024x1024 .bf16) (y : S1024x1024.Idx) :
    ∃ pc ∈ ([⟨r2_m, p0⟩] : List (View.Piece (Elt F) S1024x1024 .bf16)), y ∈ pc.1.set :=
  View.cover_of_tiled [⟨r2_m, p0⟩] S1024x1024.size (by rfl) y

/-! ## The body's triple -/

set_option maxHeartbeats 1000000 in
/-- On whole staging memrefs, the inputs' at contents `x0 x1 x2` and the output's at anything, the body runs to the
    continuation holding the inputs' as they were and the output's at `out2_3 x0 x1 x2`. -/
theorem sound_kernel2 (c : Dev nD) (E : Set ℕ) (i : grid2.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the output's at
    `out2_3` of the blocks; the plain region invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.AttnRuns.lean ====
/-
  The attention call (region 3 of @main) read at any float instance, at a PARAMETER `V`: the buffer contents the core
  holds when the region is entered. Its grid is 4 × 4 × 4 — batch β, query tile i, key tile j, the key tile fastest — so
  point t has j = t mod 4. At each point the body multiplies the 512 × 1024 query tile with the transposed key tile, takes
  relu, scales, adds the 512 × 512 mask tile, multiplies with the value tile and ADDS the product into a 512 × 1024 f32
  accumulator it keeps in a scratch buffer of its own; at j = 0 it first resets the accumulator to zero, and at j = 3 it
  writes relu of the accumulator into the output tile (β, i), which the pipeline writes back at those points only.
  So the body has three control cases, by j: A (j = 0: reset, then accumulate), B (j = 1, 2: accumulate), C (j = 3:
  accumulate, then emit), and the scratch is CARRIED from point to point: the region invariant must name its contents.

  This module: the windows' blocks; the two branch conditions in closed form over the grid; where the output window
  is idle (cases A and B: no store, no write-back); the staging and scratch memrefs as the pipeline passes them; and the
  plain region invariant opened at the kernel's own scratch, the other calls' staging buffers kept closed beside it.
-/
import proofs.«135758_j57062935495338_1_alg».proof.Proof.Gen.Kernel.Launch
import proofs.«135758_j57062935495338_1_alg».proof.Proof.Gen.Kernel.Skeleton
import proofs.«135758_j57062935495338_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query window (window 0: block (β, i), refetched only when j returns to 0): its current staging buffer holds the
    point's block, for any proof data over `V`'s arrays whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key window (window 1: block (β, j)). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value window (window 2: block (β, j)). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The mask window (window 3: block (0, i, j)). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- "j = 0": the condition under which the body resets the accumulator, from the grid coordinates. -/
abbrev cond3_0 (i : grid3.Coords) : Prop := (Scalar.cmpi .ne (Scalar.extui (Scalar.cmpi .eq (BitVec.ofNat 32 (i 2).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- "j = 3": the condition under which the body emits the output tile. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- In cases A and B the body stores nothing into the output tile: the window is idle there and not written back. -/
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
theorem idleAt3_4_B : ∀ t : Fin cfg3.N, ¬cond3_0 (grid3.coords t) → ¬cond3_1 (grid3.coords t) → cfg3.idle 4 (grid3.coords t) = true := by decide +kernel
theorem noFlush3_4_B : ∀ t : Fin cfg3.N, ¬cond3_0 (grid3.coords t) → ¬cond3_1 (grid3.coords t) → (cfg3.win 4).flush t = false := by decide +kernel
/-- In case C it is live. -/
theorem liveAt3_4_C : ∀ t : Fin cfg3.N, ¬cond3_0 (grid3.coords t) → cond3_1 (grid3.coords t) → cfg3.idle 4 (grid3.coords t) = false := by decide +kernel

/-! ## The memrefs the body is called with -/

/-- One staging buffer of the output window, through which its contents are stated. -/
abbrev VO3_4 : View sig .tc .vmem S1x512x1024 .f32 := (Memref.whole cc3_stg4_0 : Memref sig .tc .vmem S1x512x1024 .f32).view
abbrev ms3_0 (t : Fin cfg3.N) : Memref sig .tc .vmem S1x512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x512x1024 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S512x1024 .f32 := Memref.whole cc3_scratch0
/-- The same as a view: what it holds is stated through it. -/
abbrev VS3_0 : View sig .tc .vmem S512x1024 .f32 := scM3_0.view

/-- The core's scoped buffers that are neither a staging buffer of this call nor its accumulator (the other three calls'
    staging buffers), each at some contents: carried closed through every point. -/
abbrev others3 (c : Dev nD) : sProp 𝕄 :=
  Pipeline.scopedRestBut (Ix := Unit) (Name := ℕ) (U := UR sig nD τ) (Lvl := ℕ) (Val := Elt F) spec3 c [cc3_scratch0]

/-- The plain region invariant with the accumulator taken out as a memref owned at some contents. -/
theorem PhiA3_eq (c : Dev nD) :
    (Pipeline.ΦA spec3 c : sProp 𝕄)
      = iprop(iprop((∃ d, owns (c : Thread nD τ) scM3_0 fullShare d) ∗ others3 (F := F) c) ∗ (∃ r, prngReg c r)) := by
  unfold Pipeline.ΦA
  rw [Pipeline.scopedRest_split_of_list spec3 c [cc3_scratch0] (by decide) (by decide)]
  simp only [bigSepL_singleton, scM3_0, owns_whole]; try rfl

end Cert.Kernel.Hand

end
-- ==== Proof.K.AttnRunA.lean ====
/-
  The attention body run whole in case A (key tile 0: the accumulator is reset, then the tile's product added), on any whole staging memrefs and the accumulator: the pieces its
  stores leave in the output tile's buffer and in the accumulator are found BY the run, and come with the proof that
  from the inputs' buffers at their contents the body runs to a state holding the inputs' as they were and those pieces
  written. The branch conditions are decided by the case's hypotheses.
-/
import proofs.«135758_j57062935495338_1_alg».proof.Proof.K.AttnRuns

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the output tile's buffer is untouched (handed back at whatever it held, `xi4`); the accumulator may hold
    anything on entry, since the reset covers it before it is read. -/
noncomputable def kernelRun3_A (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole) (hc0 : cond3_0 i) (hc1 : ¬cond3_1 i)
    (x0 : Vec F S1x512x1024 .bf16) (x1 : Vec F S1x512x1024 .bf16) (x2 : Vec F S1x512x1024 .bf16) (x3 : Vec F S1x512x512 .f32) :
    Σ' (L4 : List (View.Piece (Elt F) S1x512x1024 .f32)), { LS0 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc3__attn_kernel i arg3 harg3 arg4 harg4 arg5 harg5 arg6 harg6 arg7 harg7 arg8 harg8) K } := by
  refine ⟨[], ?_, fun xi4 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.AttnRunB.lean ====
/-
  The attention body run whole in case B (key tiles 1 and 2: the tile's product is added to what the accumulator holds), on any whole staging memrefs and the accumulator: the pieces its
  stores leave in the output tile's buffer and in the accumulator are found BY the run, and come with the proof that
  from the inputs' buffers at their contents the body runs to a state holding the inputs' as they were and those pieces
  written. The branch conditions are decided by the case's hypotheses.
-/
import proofs.«135758_j57062935495338_1_alg».proof.Proof.K.AttnRunA

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the output tile's buffer is untouched; the accumulator enters at what the point before left, `xs0`. -/
noncomputable def kernelRun3_B (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole) (hc0 : ¬cond3_0 i) (hc1 : ¬cond3_1 i)
    (x0 : Vec F S1x512x1024 .bf16) (x1 : Vec F S1x512x1024 .bf16) (x2 : Vec F S1x512x1024 .bf16) (x3 : Vec F S1x512x512 .f32) (xs0 : Vec F S512x1024 .f32) :
    Σ' (L4 : List (View.Piece (Elt F) S1x512x1024 .f32)), { LS0 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc3__attn_kernel i arg3 harg3 arg4 harg4 arg5 harg5 arg6 harg6 arg7 harg7 arg8 harg8) K } := by
  refine ⟨[], ?_, fun xi4 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.AttnRunC.lean ====
/-
  The attention body run whole in case C (key tile 3: the tile's product is added, then relu of the accumulator is stored into the output tile), on any whole staging memrefs and the accumulator: the pieces its
  stores leave in the output tile's buffer and in the accumulator are found BY the run, and come with the proof that
  from the inputs' buffers at their contents the body runs to a state holding the inputs' as they were and those pieces
  written. The branch conditions are decided by the case's hypotheses.
-/
import proofs.«135758_j57062935495338_1_alg».proof.Proof.K.AttnRunB

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the output tile's buffer may hold anything on entry (the store covers it); the accumulator enters at what the
    point before left, `xs0`. -/
noncomputable def kernelRun3_C (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole) (hc0 : ¬cond3_0 i) (hc1 : cond3_1 i)
    (x0 : Vec F S1x512x1024 .bf16) (x1 : Vec F S1x512x1024 .bf16) (x2 : Vec F S1x512x1024 .bf16) (x3 : Vec F S1x512x512 .f32) (xs0 : Vec F S512x1024 .f32) :
    Σ' (L4 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc3__attn_kernel i arg3 harg3 arg4 harg4 arg5 harg5 arg6 harg6 arg7 harg7 arg8 harg8) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.Attn.lean ====
/-
  The attention call (region 3 of @main) read at any float instance, at a PARAMETER `V`: the buffer contents the core
  holds when the region is entered. Its grid is 4 × 4 × 4 — batch β, query tile i, key tile j, the key tile fastest — so
  point t has j = t mod 4. At each point the body multiplies the 512 × 1024 query tile with the transposed key tile, takes
  relu, scales, adds the 512 × 512 mask tile, multiplies with the value tile and ADDS the product into a 512 × 1024 f32
  accumulator it keeps in a scratch buffer of its own; at j = 0 it first resets the accumulator to zero, and at j = 3 it
  writes relu of the accumulator into the output tile (β, i), which the pipeline writes back at those points only.
  So the body has three control cases, by j: A (j = 0: reset, then accumulate), B (j = 1, 2: accumulate), C (j = 3:
  accumulate, then emit), and the scratch is CARRIED from point to point: the region invariant must name its contents.

  This module: what each case leaves in the output tile's buffer and in the accumulator (the run's pieces read back);
  THE ACCUMULATION `outsAt3`: after the body at position n the pair (output tile's buffer, accumulator) is the case
  selected by n mod 4, run on the point's four input blocks and, in cases B and C, on the accumulator the position before
  left; the region invariant `PhiS3`, which from the second position on holds the accumulator at `outsAt3`'s second
  component (before the first position it holds anything: the first point resets it); the proof data; and the body
  obligation at a generic point, by cases on the point's position mod 4.
-/
import proofs.«135758_j57062935495338_1_alg».proof.Proof.K.AttnRunC

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole)
variable (x0 : Vec F S1x512x1024 .bf16) (x1 : Vec F S1x512x1024 .bf16) (x2 : Vec F S1x512x1024 .bf16) (x3 : Vec F S1x512x512 .f32)

/-- Case A stores nothing into the output tile: a placeholder nothing consults (the window is idle and not written back). -/
def out3_A_4 (hc0 : cond3_0 i) (hc1 : ¬cond3_1 i) : Vec F S1x512x1024 .f32 :=
  VO3_4.read (Elt F) (VO3_4.writes (Elt F) VO3_4.junk (kernelRun3_A c i arg3 harg3 arg4 harg4 arg5 harg5 arg6 harg6 arg7 harg7 arg8 harg8 hc0 hc1 x0 x1 x2 x3).1)
/-- Case A's stores into the accumulator cover it. -/
theorem scover3_A_0 (hc0 : cond3_0 i) (hc1 : ¬cond3_1 i) (y : S512x1024.Idx) :
    ∃ pc ∈ (kernelRun3_A c i arg3 harg3 arg4 harg4 arg5 harg5 arg6 harg6 arg7 harg7 arg8 harg8 hc0 hc1 x0 x1 x2 x3).2.1, y ∈ pc.1.set :=
  View.cover_of_tiledL (kernelRun3_A c i arg3 harg3 arg4 harg4 arg5 harg5 arg6 harg6 arg7 harg7 arg8 harg8 hc0 hc1 x0 x1 x2 x3).2.1 S512x1024.size (by sl_kernel_rfl) y
/-- What case A leaves in the accumulator. -/
def sout3_A_0 (hc0 : cond3_0 i) (hc1 : ¬cond3_1 i) : Vec F S512x1024 .f32 :=
  VS3_0.read (Elt F) (VS3_0.writes (Elt F) VS3_0.junk (kernelRun3_A c i arg3 harg3 arg4 harg4 arg5 harg5 arg6 harg6 arg7 harg7 arg8 harg8 hc0 hc1 x0 x1 x2 x3).2.1)

/-- Case B stores nothing into the output tile either. -/
def out3_B_4 (hc0 : ¬cond3_0 i) (hc1 : ¬cond3_1 i) (xs0 : Vec F S512x1024 .f32) : Vec F S1x512x1024 .f32 :=
  VO3_4.read (Elt F) (VO3_4.writes (Elt F) VO3_4.junk (kernelRun3_B c i arg3 harg3 arg4 harg4 arg5 harg5 arg6 harg6 arg7 harg7 arg8 harg8 hc0 hc1 x0 x1 x2 x3 xs0).1)
theorem scover3_B_0 (hc0 : ¬cond3_0 i) (hc1 : ¬cond3_1 i) (xs0 : Vec F S512x1024 .f32) (y : S512x1024.Idx) :
    ∃ pc ∈ (kernelRun3_B c i arg3 harg3 arg4 harg4 arg5 harg5 arg6 harg6 arg7 harg7 arg8 harg8 hc0 hc1 x0 x1 x2 x3 xs0).2.1, y ∈ pc.1.set :=
  View.cover_of_tiledL (kernelRun3_B c i arg3 harg3 arg4 harg4 arg5 harg5 arg6 harg6 arg7 harg7 arg8 harg8 hc0 hc1 x0 x1 x2 x3 xs0).2.1 S512x1024.size (by sl_kernel_rfl) y
/-- What case B leaves in the accumulator, over what it held. -/
def sout3_B_0 (hc0 : ¬cond3_0 i) (hc1 : ¬cond3_1 i) (xs0 : Vec F S512x1024 .f32) : Vec F S512x1024 .f32 :=
  VS3_0.read (Elt F) (VS3_0.writes (Elt F) VS3_0.junk (kernelRun3_B c i arg3 harg3 arg4 harg4 arg5 harg5 arg6 harg6 arg7 harg7 arg8 harg8 hc0 hc1 x0 x1 x2 x3 xs0).2.1)

/-- Case C's store covers the output tile's buffer. -/
theorem cover3_C_4 (hc0 : ¬cond3_0 i) (hc1 : cond3_1 i) (xs0 : Vec F S512x1024 .f32) (y : S1x512x1024.Idx) :
    ∃ pc ∈ (kernelRun3_C c i arg3 harg3 arg4 harg4 arg5 harg5 arg6 harg6 arg7 harg7 arg8 harg8 hc0 hc1 x0 x1 x2 x3 xs0).1, y ∈ pc.1.set :=
  View.cover_of_tiledL (kernelRun3_C c i arg3 harg3 arg4 harg4 arg5 harg5 arg6 harg6 arg7 harg7 arg8 harg8 hc0 hc1 x0 x1 x2 x3 xs0).1 S1x512x1024.size (by sl_kernel_rfl) y
/-- What case C leaves in the output tile's buffer. -/
def out3_C_4 (hc0 : ¬cond3_0 i) (hc1 : cond3_1 i) (xs0 : Vec F S512x1024 .f32) : Vec F S1x512x1024 .f32 :=
  VO3_4.read (Elt F) (VO3_4.writes (Elt F) VO3_4.junk (kernelRun3_C c i arg3 harg3 arg4 harg4 arg5 harg5 arg6 harg6 arg7 harg7 arg8 harg8 hc0 hc1 x0 x1 x2 x3 xs0).1)
theorem scover3_C_0 (hc0 : ¬cond3_0 i) (hc1 : cond3_1 i) (xs0 : Vec F S512x1024 .f32) (y : S512x1024.Idx) :
    ∃ pc ∈ (kernelRun3_C c i arg3 harg3 arg4 harg4 arg5 harg5 arg6 harg6 arg7 harg7 arg8 harg8 hc0 hc1 x0 x1 x2 x3 xs0).2.1, y ∈ pc.1.set :=
  View.cover_of_tiledL (kernelRun3_C c i arg3 harg3 arg4 harg4 arg5 harg5 arg6 harg6 arg7 harg7 arg8 harg8 hc0 hc1 x0 x1 x2 x3 xs0).2.1 S512x1024.size (by sl_kernel_rfl) y
/-- What case C leaves in the accumulator. -/
def sout3_C_0 (hc0 : ¬cond3_0 i) (hc1 : cond3_1 i) (xs0 : Vec F S512x1024 .f32) : Vec F S512x1024 .f32 :=
  VS3_0.read (Elt F) (VS3_0.writes (Elt F) VS3_0.junk (kernelRun3_C c i arg3 harg3 arg4 harg4 arg5 harg5 arg6 harg6 arg7 harg7 arg8 harg8 hc0 hc1 x0 x1 x2 x3 xs0).2.1)

end Cases

/-! ## The cases at a point of the grid -/

/-- Case A at point `t` (j = 0): on the point's memrefs and input blocks. -/
abbrev caseA (c : Dev nD) (t : Fin cfg3.N) (h0 : t.val % 4 = 0) (h1 : ¬t.val % 4 = 3) : Vec F S1x512x1024 .f32 × Vec F S512x1024 .f32 :=
  (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) ((hcond3_0 t).mpr h0) (fun h => h1 ((hcond3_1 t).mp h)),
   sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) ((hcond3_0 t).mpr h0) (fun h => h1 ((hcond3_1 t).mp h)))
/-- Case B at point `t` (j = 1, 2), over the accumulator `xs0`. -/
abbrev caseB (c : Dev nD) (t : Fin cfg3.N) (h0 : ¬t.val % 4 = 0) (h1 : ¬t.val % 4 = 3) (xs0 : Vec F S512x1024 .f32) : Vec F S1x512x1024 .f32 × Vec F S512x1024 .f32 :=
  (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) (fun h => h1 ((hcond3_1 t).mp h)) xs0,
   sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) (fun h => h1 ((hcond3_1 t).mp h)) xs0)
/-- Case C at point `t` (j = 3), over the accumulator `xs0`. -/
abbrev caseC (c : Dev nD) (t : Fin cfg3.N) (h0 : ¬t.val % 4 = 0) (h1 : t.val % 4 = 3) (xs0 : Vec F S512x1024 .f32) : Vec F S1x512x1024 .f32 × Vec F S512x1024 .f32 :=
  (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) ((hcond3_1 t).mpr h1) xs0,
   sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) ((hcond3_1 t).mpr h1) xs0)

/-! ## What the output tile's buffer and the accumulator hold after each point -/

/-- THE ACCUMULATION: (output tile's buffer, accumulator) after the body at position `n`. -/
def outsAt3 (c : Dev nD) : (n : ℕ) → n < cfg3.N → Vec F S1x512x1024 .f32 × Vec F S512x1024 .f32
  | 0, hn => caseA V c ⟨0, hn⟩ (Nat.zero_mod 4) (by show ¬ (0 % 4 = 3); decide)
  | n + 1, hn =>
    if h0 : (n + 1) % 4 = 0 then
      if h1 : (n + 1) % 4 = 3 then False.elim (by omega)
      else caseA V c ⟨n + 1, hn⟩ h0 h1
    else
      if h1 : (n + 1) % 4 = 3 then caseC V c ⟨n + 1, hn⟩ h0 h1 (outsAt3 c n (Nat.lt_of_succ_lt hn)).2
      else caseB V c ⟨n + 1, hn⟩ h0 h1 (outsAt3 c n (Nat.lt_of_succ_lt hn)).2

theorem outsAt3_A (c : Dev nD) (t : Fin cfg3.N) (h0 : t.val % 4 = 0) (h1 : ¬t.val % 4 = 3) :
    outsAt3 V c t.val t.isLt = caseA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = caseB V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = caseC V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first, the plain invariant (the accumulator at anything); afterwards the accumulator at
    what the position before left, the other calls' buffers closed beside it, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 (F := F) c) ∗ (∃ r, prngReg c r)) := by
  cases n with
  | zero => exact absurd rfl hz
  | succ n => rfl

/-! ## The region's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. The inputs' memrefs hold their blocks; the position mod 4 says which case the point is in; the
    invariant hands the body the accumulator at what the position before left (at anything before the first), and takes it
    back at this position's contents; in cases A and B the output tile's buffer is handed back untouched, in case C it
    holds the case's store. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 4 = 0
  · by_cases h1 : t.val % 4 = 3
    · exfalso; omega
    · -- case A
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      dsimp only [caseA]
      unfold sout3_A_0; (try dsimp only)
      by_cases hz : t.val = 0
      · rw [PhiS3_castSucc V c t, PhiS3_zero V c _ _ hz, PhiA3_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- case C
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      dsimp only [caseC]
      unfold out3_C_4 sout3_C_0; (try dsimp only)
      have hz : t.val ≠ 0 := by omega
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C_4 c _ _ _ _ _ _ _ _ _ _ _ _ _ _ _ _ _ _ _ _)
    · -- case B
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      dsimp only [caseB]
      unfold sout3_B_0; (try dsimp only)
      have hz : t.val ≠ 0 := by omega
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the plain one back: the accumulator's contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hoth⟩, Hg⟩
  isplitl [HS0 Hoth]
  · isplitl [HS0]
    · iexists _; iexact HS0
    iexact Hoth
  iexact Hg

/-- The same after the last point. -/
theorem hout3 (c : Dev nD) : (dat3 V c).Φ (Fin.last cfg3.N) ⊢ Pipeline.ΦA spec3 c :=
  Phi3_out V c _ (by rw [Fin.val_last]; have : cfg3.N = 64 := N_3; omega)

end Cert.Kernel.Hand

end
-- ==== Proof.K.Run.lean ====
/-
  THE RUN of the whole program, read at any float instance: @main is nine host reshapes, then the three projection calls
  each followed by one reshape, then the attention call. The core's unscoped buffers are followed through @main as a fold
  from the launch memory: a host stretch applies its operations; a call replaces its arrays by what its pipeline leaves
  (`Dat.arrAt … N` of that call's proof data at the contents it was entered with) and touches nothing else.
  Each call is one segment of the several-regions launch, over the thread state "every unscoped buffer at the boundary's
  contents, the generator register at some state, nothing owed"; the attention call's invariant, which tracks its
  accumulator, is entered from and returned to the plain one. The launch theorem then gives: every weakly fair execution
  terminates, nothing faults, and at the end EVERY unscoped buffer holds the fold's last value `W8`. Read at the argument
  arrays that is the frame claim (no stretch and no call writes an argument); read at the result it is the attention
  call's array, whose entry contents are the three projections' arrays reshaped.
-/
import proofs.«135758_j57062935495338_1_alg».proof.Proof.K.Proj0
import proofs.«135758_j57062935495338_1_alg».proof.Proof.K.Proj1
import proofs.«135758_j57062935495338_1_alg».proof.Proof.K.Proj2
import proofs.«135758_j57062935495338_1_alg».proof.Proof.K.Attn
import proofs.«135758_j57062935495338_1_alg».proof.Proof.Gen.Kernel.Regions

-- membership in a rectangle of these extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the nine reshapes (call 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b

/-- After call 0: its arrays at what the pipeline leaves (the inputs as entered, the result's write-backs folded), every
    other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the reshape of the projected queries (call 1's entry). -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b

/-- After call 1: its arrays at what the pipeline leaves (the inputs as entered, the result's write-backs folded), every
    other buffer as entered. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-- After the reshape of the projected keys (call 2's entry). -/
abbrev W5 : Dev nD → Valuation τ sig (Elt F) := fun c => StableHlo.after hostOps2 (W4 m ρ c)
abbrev Vin2 : (c : Dev nD) → (b : Ref sig .tc) → Buf (Elt F) ((c : Thread nD τ).loc b) := fun c b => W5 m ρ c b

/-- After call 2: its arrays at what the pipeline leaves (the inputs as entered, the result's write-backs folded), every
    other buffer as entered. -/
def W6 (c : Dev nD) : Valuation τ sig (Elt F) :=
  Pipeline.withArrays spec2 c (W5 m ρ c) fun w => (dat2 (Vin2 m ρ) c).arrAt w cfg2.N
theorem W6_arr (c : Dev nD) (w : Fin cfg2.W) :
    W6 m ρ c (Proc.devRef .tc (Pipeline.arrRef spec2 w)) = (dat2 (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev Vout2 : (c : Dev nD) → (b : Ref sig .tc) → Buf (Elt F) ((c : Thread nD τ).loc b) := fun c b => W6 m ρ c b
theorem hF2 (c : Dev nD) (w : Fin cfg2.W) : (dat2 (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)

/-- After the reshape of the projected values (the attention call's entry). -/
abbrev W7 : Dev nD → Valuation τ sig (Elt F) := fun c => StableHlo.after hostOps3 (W6 m ρ c)
abbrev Vin3 : (c : Dev nD) → (b : Ref sig .tc) → Buf (Elt F) ((c : Thread nD τ).loc b) := fun c b => W7 m ρ c b

/-- After call 3: its arrays at what the pipeline leaves (the inputs as entered, the result's write-backs folded), every
    other buffer as entered. -/
def W8 (c : Dev nD) : Valuation τ sig (Elt F) :=
  Pipeline.withArrays spec3 c (W7 m ρ c) fun w => (dat3 (Vin3 m ρ) c).arrAt w cfg3.N
theorem W8_arr (c : Dev nD) (w : Fin cfg3.W) :
    W8 m ρ c (Proc.devRef .tc (Pipeline.arrRef spec3 w)) = (dat3 (Vin3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev Vout3 : (c : Dev nD) → (b : Ref sig .tc) → Buf (Elt F) ((c : Thread nD τ).loc b) := fun c b => W8 m ρ c b
theorem hF3 (c : Dev nD) (w : Fin cfg3.W) : (dat3 (Vin3 m ρ) c).arrAt w cfg3.N = Vout3 m ρ c (Pipeline.arrRef spec3 w) :=
  (W8_arr m ρ c w).symm
theorem hrest3 (c : Dev nD) : ∀ b, b ∉ Finset.univ.image (Pipeline.arrRef spec3) → Vout3 m ρ c b = Vin3 m ρ c b :=
  fun b hb => W8_of_ne m ρ c b fun w e => hb (Finset.mem_image.mpr ⟨w, Finset.mem_univ _, e⟩)

/-! ## The arguments end as launched -/

/-- A buffer that no host stretch writes and that is no array of a projection call reaches the attention call as launched. -/
theorem W7_arg (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  (W8_of_ne m ρ c main_arg0 (by decide)).trans
    (W7_arg m ρ c main_arg0 (by decide) (by decide) (by decide) (by decide) (by decide) (by decide) (by decide))
theorem W8_main_arg1 (c : Dev nD) : W8 m ρ c (Proc.devRef .tc main_arg1) = m ((c : Thread nD τ).loc main_arg1) :=
  (W8_of_ne m ρ c main_arg1 (by decide)).trans
    (W7_arg m ρ c main_arg1 (by decide) (by decide) (by decide) (by decide) (by decide) (by decide) (by decide))
theorem W8_main_arg2 (c : Dev nD) : W8 m ρ c (Proc.devRef .tc main_arg2) = m ((c : Thread nD τ).loc main_arg2) :=
  (W8_of_ne m ρ c main_arg2 (by decide)).trans
    (W7_arg m ρ c main_arg2 (by decide) (by decide) (by decide) (by decide) (by decide) (by decide) (by decide))
theorem W8_main_arg3 (c : Dev nD) : W8 m ρ c (Proc.devRef .tc main_arg3) = m ((c : Thread nD τ).loc main_arg3) :=
  ((W8_arr m ρ c 3).trans (((dat3 (Vin3 m ρ) c).arrAt_in 3 rfl _).trans (A_eq3 (Vin3 m ρ) c 3))).trans
    (W7_arg m ρ c main_arg3 (by decide) (by decide) (by decide) (by decide) (by decide) (by decide) (by decide))
theorem W8_main_arg4 (c : Dev nD) : W8 m ρ c (Proc.devRef .tc main_arg4) = m ((c : Thread nD τ).loc main_arg4) :=
  (W8_of_ne m ρ c main_arg4 (by decide)).trans
    (W7_arg m ρ c main_arg4 (by decide) (by decide) (by decide) (by decide) (by decide) (by decide) (by decide))
theorem W8_main_arg5 (c : Dev nD) : W8 m ρ c (Proc.devRef .tc main_arg5) = m ((c : Thread nD τ).loc main_arg5) :=
  (W8_of_ne m ρ c main_arg5 (by decide)).trans
    (W7_arg m ρ c main_arg5 (by decide) (by decide) (by decide) (by decide) (by decide) (by decide) (by decide))
theorem W8_main_arg6 (c : Dev nD) : W8 m ρ c (Proc.devRef .tc main_arg6) = m ((c : Thread nD τ).loc main_arg6) :=
  (W8_of_ne m ρ c main_arg6 (by decide)).trans
    (W7_arg m ρ c main_arg6 (by decide) (by decide) (by decide) (by decide) (by decide) (by decide) (by decide))
theorem W8_main_arg7 (c : Dev nD) : W8 m ρ c (Proc.devRef .tc main_arg7) = m ((c : Thread nD τ).loc main_arg7) :=
  (W8_of_ne m ρ c main_arg7 (by decide)).trans
    (W7_arg m ρ c main_arg7 (by decide) (by decide) (by decide) (by decide) (by decide) (by decide) (by decide))
theorem W8_main_arg8 (c : Dev nD) : W8 m ρ c (Proc.devRef .tc main_arg8) = m ((c : Thread nD τ).loc main_arg8) :=
  (W8_of_ne m ρ c main_arg8 (by decide)).trans
    (W7_arg m ρ c main_arg8 (by decide) (by decide) (by decide) (by decide) (by decide) (by decide) (by decide))
theorem W8_main_arg9 (c : Dev nD) : W8 m ρ c (Proc.devRef .tc main_arg9) = m ((c : Thread nD τ).loc main_arg9) :=
  (W8_of_ne m ρ c main_arg9 (by decide)).trans
    (W7_arg m ρ c main_arg9 (by decide) (by decide) (by decide) (by decide) (by decide) (by decide) (by decide))

/-- The result: the attention call's output array after its last point. -/
theorem W8_main_v15 (c : Dev nD) : W8 m ρ c (Proc.devRef .tc main_v15) = (dat3 (Vin3 m ρ) c).arrAt 4 cfg3.N :=
  W8_arr m ρ c 4

/-! ## The proof data family and the thread state -/

/-- No pipeline has a prefetched table. -/
abbrev tadm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) tadm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The calls as segments -/

set_option backward.isDefEq.respectTransparency.types false in
/-- Call 0 as a segment: entered from every unscoped buffer at the contents before it, left at the contents after it. Its
    arrays are split out of the unscoped buffers and put back at what the pipeline leaves; the generator register goes into
    the region invariant and comes out; nothing is owed; the kernel has no semaphore of its own. -/
def reg0 : Pipeline.RegionSeg (pcfgs (F := F)) tadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) tadm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at the contents before it, left at the contents after it. Its
    arrays are split out of the unscoped buffers and put back at what the pipeline leaves; the generator register goes into
    the region invariant and comes out; nothing is owed; the kernel has no semaphore of its own. -/
def reg1 : Pipeline.RegionSeg (pcfgs (F := F)) tadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) tadm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at the contents before it, left at the contents after it. Its
    arrays are split out of the unscoped buffers and put back at what the pipeline leaves; the generator register goes into
    the region invariant and comes out; nothing is owed; the kernel has no semaphore of its own. -/
def reg2 : Pipeline.RegionSeg (pcfgs (F := F)) tadm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) tadm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tadm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered from every unscoped buffer at the contents before it, left at the contents after it. Its
    arrays are split out of the unscoped buffers and put back at what the pipeline leaves; the generator register goes into
    the region invariant and comes out; nothing is owed; the kernel has no semaphore of its own. -/
def reg3 : Pipeline.RegionSeg (pcfgs (F := F)) tadm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) tadm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (tadm (F := F) 3).1
          ∗ Pipeline.scopedRest spec3 c) : sProp 𝕄) ⊢ Pipeline.ΦA spec3 c := by
      unfold Pipeline.ΦA
      iintro ⟨Hp, -, Hr⟩
      isplitl [Hr]; · iexact Hr
      iexact Hp
    exact h.trans (hin3 (Vin3 m ρ) c)
  hout c := by
    rw [Pipeline.ownSems0_none]
    have h : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    exact (hout3 (Vin3 m ρ) c).trans h
  hexit c := by
    have hjoin := Pipeline.unscopedBufs_of_arrays (p := 3) (pcfgs (F := F)) tadm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) tadm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments. -/
theorem main_run (c : Dev nD) : main (F := F) c = Pipeline.Seg.run (msegs m ρ) := (main_chain c).trans (by chain_rfl)

set_option backward.isDefEq.respectTransparency.types false in
/-- From any memory with zero counters every weakly fair execution of @main terminates, nothing faulting, and every final
    state holds each unscoped buffer of each core at the fold's last value. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) tadm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩) (run_named m ρ)

end Cert.Kernel.Hand

end
-- ==== Proof.KI.Proj0.lean ====
/-
  Projection call 0 of the program (the linear map, bias and relu that makes one of the three projected arrays: call 0 the queries', call 1 the keys', call 2 the values'), as one region of @main read at
  any float instance, at a PARAMETER `V`: the buffer contents the core holds when the region is entered.
  The grid has 8 points; point t stages rows [1024 t, 1024 t + 1024) of the flattened input (window 0, moving), the whole
  weight matrix and the bias row (windows 1 and 2, the same block at every point) and writes back the same rows of the
  result (window 3). The body reads the three staged blocks whole and stores one value over the whole output block, so
  what a point leaves in the output's staging buffer is a function of the three input blocks alone: `out0_3`.
  With that the region's proof data is fixed: the arrays at `V`, after each point the inputs' buffers unchanged and the
  output's at `out0_3` of the point's blocks; nothing is carried from point to point, so the region invariant is the plain
  one (the scratch and the staging buffers of the other calls at anything, the generator register at some state).
-/
import proofs.«135758_j57062935495338_1_alg».proof.Proof.Gen.KernelIdeal.Launch
import proofs.«135758_j57062935495338_1_alg».proof.Proof.Gen.KernelIdeal.Skeleton
import proofs.«135758_j57062935495338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window (window 0): its current staging buffer holds the point's block, for any proof data over `V`'s
    arrays whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window (window 1): fetched once, and still holding that block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window (window 2): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_m : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-- What the body leaves in the output's staging buffer, from the three input blocks: its one store. -/
def out0_3 (x0 : Vec F S1024x1024 .f32) (x1 : Vec F S1024x1024 .f32) (x2 : Vec F S1x1024 .f32) : Vec F S1024x1024 .bf16 :=
  View.canon [⟨r0_m, k0_pay1 (View.ld x0 r0_m) (View.ld x1 r0_m) (View.ld x2 r0_b)⟩]

/-- The one store covers the buffer. -/
theorem cover0_3 (p0 : Vec F S1024x1024 .bf16) (y : S1024x1024.Idx) :
    ∃ pc ∈ ([⟨r0_m, p0⟩] : List (View.Piece (Elt F) S1024x1024 .bf16)), y ∈ pc.1.set :=
  View.cover_of_tiled [⟨r0_m, p0⟩] S1024x1024.size (by rfl) y

/-! ## The body's triple -/

set_option maxHeartbeats 1000000 in
/-- On whole staging memrefs, the inputs' at contents `x0 x1 x2` and the output's at anything, the body runs to the
    continuation holding the inputs' as they were and the output's at `out0_3 x0 x1 x2`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer at its block and the output's at
    `out0_3` of the blocks; the plain region invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Proj1.lean ====
/-
  Projection call 1 of the program (the linear map, bias and relu that makes one of the three projected arrays: call 0 the queries', call 1 the keys', call 2 the values'), as one region of @main read at
  any float instance, at a PARAMETER `V`: the buffer contents the core holds when the region is entered.
  The grid has 8 points; point t stages rows [1024 t, 1024 t + 1024) of the flattened input (window 0, moving), the whole
  weight matrix and the bias row (windows 1 and 2, the same block at every point) and writes back the same rows of the
  result (window 3). The body reads the three staged blocks whole and stores one value over the whole output block, so
  what a point leaves in the output's staging buffer is a function of the three input blocks alone: `out1_3`.
  With that the region's proof data is fixed: the arrays at `V`, after each point the inputs' buffers unchanged and the
  output's at `out1_3` of the point's blocks; nothing is carried from point to point, so the region invariant is the plain
  one (the scratch and the staging buffers of the other calls at anything, the generator register at some state).
-/
import proofs.«135758_j57062935495338_1_alg».proof.Proof.Gen.KernelIdeal.Launch
import proofs.«135758_j57062935495338_1_alg».proof.Proof.Gen.KernelIdeal.Skeleton
import proofs.«135758_j57062935495338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window (window 0): its current staging buffer holds the point's block, for any proof data over `V`'s
    arrays whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window (window 1): fetched once, and still holding that block at every later point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window (window 2): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_m : Rect S1024x1024 := Rect.unit (s := S1024x1024) ![0, 0] S1024x1024.size inb_S1024x1024_S1024x1024_0_0
abbrev r1_b : Rect S1x1024 := Rect.unit (s := S1x1024) ![0, 0] S1x1024.size inb_S1x1024_S1x1024_0_0

/-- What the body leaves in the output's staging buffer, from the three input blocks: its one store. -/
def out1_3 (x0 : Vec F S1024x1024 .f32) (x1 : Vec F S1024x1024 .f32) (x2 : Vec F S1x1024 .f32) : Vec F S1024x1024 .bf16 :=
  View.canon [⟨r1_m, k1_pay1 (View.ld x0 r1_m) (View.ld x1 r1_m) (View.ld x2 r1_b)⟩]

/-- The one store covers the buffer. -/
theorem cover1_3 (p0 : Vec F S1024x1024 .bf16) (y : S1024x1024.Idx) :
    ∃ pc ∈ ([⟨r1_m, p0⟩] : List (View.Piece (Elt F) S1024x1024 .bf16)), y ∈ pc.1.set :=
  View.cover_of_tiled [⟨r1_m, p0⟩] S1024x1024.size (by rfl) y

/-! ## The body's triple -/

set_option maxHeartbeats 1000000 in
/-- On whole staging memrefs, the inputs' at contents `x0 x1 x2` and the output's at anything, the body runs to the
    continuation holding the inputs' as they were and the output's at `out1_3 x0 x1 x2`. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the output's at
    `out1_3` of the blocks; the plain region invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Proj2.lean ====
/-
  Projection call 2 of the program (the linear map, bias and relu that makes one of the three projected arrays: call 0 the queries', call 1 the keys', call 2 the values'), as one region of @main read at
  any float instance, at a PARAMETER `V`: the buffer contents the core holds when the region is entered.
  The grid has 8 points; point t stages rows [1024 t, 1024 t + 1024) of the flattened input (window 0, moving), the whole
  weight matrix and the bias row (windows 1 and 2, the same block at every point) and writes back the same rows of the
  result (window 3). The body reads the three staged blocks whole and stores one value over the whole output block, so
  what a point leaves in the output's staging buffer is a function of the three input blocks alone: `out2_3`.
  With that the region's proof data is fixed: the arrays at `V`, after each point the inputs' buffers unchanged and the
  output's at `out2_3` of the point's blocks; nothing is carried from point to point, so the region invariant is the plain
  one (the scratch and the staging buffers of the other calls at anything, the generator register at some state).
-/
import proofs.«135758_j57062935495338_1_alg».proof.Proof.Gen.KernelIdeal.Launch
import proofs.«135758_j57062935495338_1_alg».proof.Proof.Gen.KernelIdeal.Skeleton
import proofs.«135758_j57062935495338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window (window 0): its current staging buffer holds the point's block, for any proof data over `V`'s
    arrays whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window (window 1): fetched once, and still holding that block at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window (window 2): likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole block -/

abbrev r2_m : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- What the body leaves in the output's staging buffer, from the three input blocks: its one store. -/
def out2_3 (x0 : Vec F S1024x1024 .f32) (x1 : Vec F S1024x1024 .f32) (x2 : Vec F S1x1024 .f32) : Vec F S1024x1024 .bf16 :=
  View.canon [⟨r2_m, k2_pay1 (View.ld x0 r2_m) (View.ld x1 r2_m) (View.ld x2 r2_b)⟩]

/-- The one store covers the buffer. -/
theorem cover2_3 (p0 : Vec F S1024x1024 .bf16) (y : S1024x1024.Idx) :
    ∃ pc ∈ ([⟨r2_m, p0⟩] : List (View.Piece (Elt F) S1024x1024 .bf16)), y ∈ pc.1.set :=
  View.cover_of_tiled [⟨r2_m, p0⟩] S1024x1024.size (by rfl) y

/-! ## The body's triple -/

set_option maxHeartbeats 1000000 in
/-- On whole staging memrefs, the inputs' at contents `x0 x1 x2` and the output's at anything, the body runs to the
    continuation holding the inputs' as they were and the output's at `out2_3 x0 x1 x2`. -/
theorem sound_kernel2 (c : Dev nD) (E : Set ℕ) (i : grid2.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the output's at
    `out2_3` of the blocks; the plain region invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.AttnRuns.lean ====
/-
  The attention call (region 3 of @main) read at any float instance, at a PARAMETER `V`: the buffer contents the core
  holds when the region is entered. Its grid is 4 × 4 × 4 — batch β, query tile i, key tile j, the key tile fastest — so
  point t has j = t mod 4. At each point the body multiplies the 512 × 1024 query tile with the transposed key tile, takes
  relu, scales, adds the 512 × 512 mask tile, multiplies with the value tile and ADDS the product into a 512 × 1024 f32
  accumulator it keeps in a scratch buffer of its own; at j = 0 it first resets the accumulator to zero, and at j = 3 it
  writes relu of the accumulator into the output tile (β, i), which the pipeline writes back at those points only.
  So the body has three control cases, by j: A (j = 0: reset, then accumulate), B (j = 1, 2: accumulate), C (j = 3:
  accumulate, then emit), and the scratch is CARRIED from point to point: the region invariant must name its contents.

  This module: the windows' blocks; the two branch conditions in closed form over the grid; where the output window
  is idle (cases A and B: no store, no write-back); the staging and scratch memrefs as the pipeline passes them; and the
  plain region invariant opened at the kernel's own scratch, the other calls' staging buffers kept closed beside it.
-/
import proofs.«135758_j57062935495338_1_alg».proof.Proof.Gen.KernelIdeal.Launch
import proofs.«135758_j57062935495338_1_alg».proof.Proof.Gen.KernelIdeal.Skeleton
import proofs.«135758_j57062935495338_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query window (window 0: block (β, i), refetched only when j returns to 0): its current staging buffer holds the
    point's block, for any proof data over `V`'s arrays whose body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key window (window 1: block (β, j)). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value window (window 2: block (β, j)). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The mask window (window 3: block (0, i, j)). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- "j = 0": the condition under which the body resets the accumulator, from the grid coordinates. -/
abbrev cond3_0 (i : grid3.Coords) : Prop := (Scalar.cmpi .ne (Scalar.extui (Scalar.cmpi .eq (BitVec.ofNat 32 (i 2).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- "j = 3": the condition under which the body emits the output tile. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- In cases A and B the body stores nothing into the output tile: the window is idle there and not written back. -/
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
theorem idleAt3_4_B : ∀ t : Fin cfg3.N, ¬cond3_0 (grid3.coords t) → ¬cond3_1 (grid3.coords t) → cfg3.idle 4 (grid3.coords t) = true := by decide +kernel
theorem noFlush3_4_B : ∀ t : Fin cfg3.N, ¬cond3_0 (grid3.coords t) → ¬cond3_1 (grid3.coords t) → (cfg3.win 4).flush t = false := by decide +kernel
/-- In case C it is live. -/
theorem liveAt3_4_C : ∀ t : Fin cfg3.N, ¬cond3_0 (grid3.coords t) → cond3_1 (grid3.coords t) → cfg3.idle 4 (grid3.coords t) = false := by decide +kernel

/-! ## The memrefs the body is called with -/

/-- One staging buffer of the output window, through which its contents are stated. -/
abbrev VO3_4 : View sig .tc .vmem S1x512x1024 .f32 := (Memref.whole cc3_stg4_0 : Memref sig .tc .vmem S1x512x1024 .f32).view
abbrev ms3_0 (t : Fin cfg3.N) : Memref sig .tc .vmem S1x512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x512x1024 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S512x1024 .f32 := Memref.whole cc3_scratch0
/-- The same as a view: what it holds is stated through it. -/
abbrev VS3_0 : View sig .tc .vmem S512x1024 .f32 := scM3_0.view

/-- The core's scoped buffers that are neither a staging buffer of this call nor its accumulator (the other three calls'
    staging buffers), each at some contents: carried closed through every point. -/
abbrev others3 (c : Dev nD) : sProp 𝕄 :=
  Pipeline.scopedRestBut (Ix := Unit) (Name := ℕ) (U := UR sig nD τ) (Lvl := ℕ) (Val := Elt F) spec3 c [cc3_scratch0]

/-- The plain region invariant with the accumulator taken out as a memref owned at some contents. -/
theorem PhiA3_eq (c : Dev nD) :
    (Pipeline.ΦA spec3 c : sProp 𝕄)
      = iprop(iprop((∃ d, owns (c : Thread nD τ) scM3_0 fullShare d) ∗ others3 (F := F) c) ∗ (∃ r, prngReg c r)) := by
  unfold Pipeline.ΦA
  rw [Pipeline.scopedRest_split_of_list spec3 c [cc3_scratch0] (by decide) (by decide)]
  simp only [bigSepL_singleton, scM3_0, owns_whole]; try rfl

end Cert.KernelIdeal.Hand

end
-- ==== Proof.KI.AttnRunA.lean ====
/-
  The attention body run whole in case A (key tile 0: the accumulator is reset, then the tile's product added), on any whole staging memrefs and the accumulator: the pieces its
  stores leave in the output tile's buffer and in the accumulator are found BY the run, and come with the proof that
  from the inputs' buffers at their contents the body runs to a state holding the inputs' as they were and those pieces
  written. The branch conditions are decided by the case's hypotheses.
-/
import proofs.«135758_j57062935495338_1_alg».proof.Proof.KI.AttnRuns

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the output tile's buffer is untouched (handed back at whatever it held, `xi4`); the accumulator may hold
    anything on entry, since the reset covers it before it is read. -/
noncomputable def kernelRun3_A (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole) (hc0 : cond3_0 i) (hc1 : ¬cond3_1 i)
    (x0 : Vec F S1x512x1024 .bf16) (x1 : Vec F S1x512x1024 .bf16) (x2 : Vec F S1x512x1024 .bf16) (x3 : Vec F S1x512x512 .f32) :
    Σ' (L4 : List (View.Piece (Elt F) S1x512x1024 .f32)), { LS0 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc3__attn_kernel i arg3 harg3 arg4 harg4 arg5 harg5 arg6 harg6 arg7 harg7 arg8 harg8) K } := by
  refine ⟨[], ?_, fun xi4 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.AttnRunB.lean ====
/-
  The attention body run whole in case B (key tiles 1 and 2: the tile's product is added to what the accumulator holds), on any whole staging memrefs and the accumulator: the pieces its
  stores leave in the output tile's buffer and in the accumulator are found BY the run, and come with the proof that
  from the inputs' buffers at their contents the body runs to a state holding the inputs' as they were and those pieces
  written. The branch conditions are decided by the case's hypotheses.
-/
import proofs.«135758_j57062935495338_1_alg».proof.Proof.KI.AttnRunA

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the output tile's buffer is untouched; the accumulator enters at what the point before left, `xs0`. -/
noncomputable def kernelRun3_B (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole) (hc0 : ¬cond3_0 i) (hc1 : ¬cond3_1 i)
    (x0 : Vec F S1x512x1024 .bf16) (x1 : Vec F S1x512x1024 .bf16) (x2 : Vec F S1x512x1024 .bf16) (x3 : Vec F S1x512x512 .f32) (xs0 : Vec F S512x1024 .f32) :
    Σ' (L4 : List (View.Piece (Elt F) S1x512x1024 .f32)), { LS0 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc3__attn_kernel i arg3 harg3 arg4 harg4 arg5 harg5 arg6 harg6 arg7 harg7 arg8 harg8) K } := by
  refine ⟨[], ?_, fun xi4 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.AttnRunC.lean ====
/-
  The attention body run whole in case C (key tile 3: the tile's product is added, then relu of the accumulator is stored into the output tile), on any whole staging memrefs and the accumulator: the pieces its
  stores leave in the output tile's buffer and in the accumulator are found BY the run, and come with the proof that
  from the inputs' buffers at their contents the body runs to a state holding the inputs' as they were and those pieces
  written. The branch conditions are decided by the case's hypotheses.
-/
import proofs.«135758_j57062935495338_1_alg».proof.Proof.KI.AttnRunB

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the output tile's buffer may hold anything on entry (the store covers it); the accumulator enters at what the
    point before left, `xs0`. -/
noncomputable def kernelRun3_C (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole) (hc0 : ¬cond3_0 i) (hc1 : cond3_1 i)
    (x0 : Vec F S1x512x1024 .bf16) (x1 : Vec F S1x512x1024 .bf16) (x2 : Vec F S1x512x1024 .bf16) (x3 : Vec F S1x512x512 .f32) (xs0 : Vec F S512x1024 .f32) :
    Σ' (L4 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc3__attn_kernel i arg3 harg3 arg4 harg4 arg5 harg5 arg6 harg6 arg7 harg7 arg8 harg8) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.Attn.lean ====
/-
  The attention call (region 3 of @main) read at any float instance, at a PARAMETER `V`: the buffer contents the core
  holds when the region is entered. Its grid is 4 × 4 × 4 — batch β, query tile i, key tile j, the key tile fastest — so
  point t has j = t mod 4. At each point the body multiplies the 512 × 1024 query tile with the transposed key tile, takes
  relu, scales, adds the 512 × 512 mask tile, multiplies with the value tile and ADDS the product into a 512 × 1024 f32
  accumulator it keeps in a scratch buffer of its own; at j = 0 it first resets the accumulator to zero, and at j = 3 it
  writes relu of the accumulator into the output tile (β, i), which the pipeline writes back at those points only.
  So the body has three control cases, by j: A (j = 0: reset, then accumulate), B (j = 1, 2: accumulate), C (j = 3:
  accumulate, then emit), and the scratch is CARRIED from point to point: the region invariant must name its contents.

  This module: what each case leaves in the output tile's buffer and in the accumulator (the run's pieces read back);
  THE ACCUMULATION `outsAt3`: after the body at position n the pair (output tile's buffer, accumulator) is the case
  selected by n mod 4, run on the point's four input blocks and, in cases B and C, on the accumulator the position before
  left; the region invariant `PhiS3`, which from the second position on holds the accumulator at `outsAt3`'s second
  component (before the first position it holds anything: the first point resets it); the proof data; and the body
  obligation at a generic point, by cases on the point's position mod 4.
-/
import proofs.«135758_j57062935495338_1_alg».proof.Proof.KI.AttnRunC

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole)
variable (x0 : Vec F S1x512x1024 .bf16) (x1 : Vec F S1x512x1024 .bf16) (x2 : Vec F S1x512x1024 .bf16) (x3 : Vec F S1x512x512 .f32)

/-- Case A stores nothing into the output tile: a placeholder nothing consults (the window is idle and not written back). -/
def out3_A_4 (hc0 : cond3_0 i) (hc1 : ¬cond3_1 i) : Vec F S1x512x1024 .f32 :=
  VO3_4.read (Elt F) (VO3_4.writes (Elt F) VO3_4.junk (kernelRun3_A c i arg3 harg3 arg4 harg4 arg5 harg5 arg6 harg6 arg7 harg7 arg8 harg8 hc0 hc1 x0 x1 x2 x3).1)
/-- Case A's stores into the accumulator cover it. -/
theorem scover3_A_0 (hc0 : cond3_0 i) (hc1 : ¬cond3_1 i) (y : S512x1024.Idx) :
    ∃ pc ∈ (kernelRun3_A c i arg3 harg3 arg4 harg4 arg5 harg5 arg6 harg6 arg7 harg7 arg8 harg8 hc0 hc1 x0 x1 x2 x3).2.1, y ∈ pc.1.set :=
  View.cover_of_tiledL (kernelRun3_A c i arg3 harg3 arg4 harg4 arg5 harg5 arg6 harg6 arg7 harg7 arg8 harg8 hc0 hc1 x0 x1 x2 x3).2.1 S512x1024.size (by sl_kernel_rfl) y
/-- What case A leaves in the accumulator. -/
def sout3_A_0 (hc0 : cond3_0 i) (hc1 : ¬cond3_1 i) : Vec F S512x1024 .f32 :=
  VS3_0.read (Elt F) (VS3_0.writes (Elt F) VS3_0.junk (kernelRun3_A c i arg3 harg3 arg4 harg4 arg5 harg5 arg6 harg6 arg7 harg7 arg8 harg8 hc0 hc1 x0 x1 x2 x3).2.1)

/-- Case B stores nothing into the output tile either. -/
def out3_B_4 (hc0 : ¬cond3_0 i) (hc1 : ¬cond3_1 i) (xs0 : Vec F S512x1024 .f32) : Vec F S1x512x1024 .f32 :=
  VO3_4.read (Elt F) (VO3_4.writes (Elt F) VO3_4.junk (kernelRun3_B c i arg3 harg3 arg4 harg4 arg5 harg5 arg6 harg6 arg7 harg7 arg8 harg8 hc0 hc1 x0 x1 x2 x3 xs0).1)
theorem scover3_B_0 (hc0 : ¬cond3_0 i) (hc1 : ¬cond3_1 i) (xs0 : Vec F S512x1024 .f32) (y : S512x1024.Idx) :
    ∃ pc ∈ (kernelRun3_B c i arg3 harg3 arg4 harg4 arg5 harg5 arg6 harg6 arg7 harg7 arg8 harg8 hc0 hc1 x0 x1 x2 x3 xs0).2.1, y ∈ pc.1.set :=
  View.cover_of_tiledL (kernelRun3_B c i arg3 harg3 arg4 harg4 arg5 harg5 arg6 harg6 arg7 harg7 arg8 harg8 hc0 hc1 x0 x1 x2 x3 xs0).2.1 S512x1024.size (by sl_kernel_rfl) y
/-- What case B leaves in the accumulator, over what it held. -/
def sout3_B_0 (hc0 : ¬cond3_0 i) (hc1 : ¬cond3_1 i) (xs0 : Vec F S512x1024 .f32) : Vec F S512x1024 .f32 :=
  VS3_0.read (Elt F) (VS3_0.writes (Elt F) VS3_0.junk (kernelRun3_B c i arg3 harg3 arg4 harg4 arg5 harg5 arg6 harg6 arg7 harg7 arg8 harg8 hc0 hc1 x0 x1 x2 x3 xs0).2.1)

/-- Case C's store covers the output tile's buffer. -/
theorem cover3_C_4 (hc0 : ¬cond3_0 i) (hc1 : cond3_1 i) (xs0 : Vec F S512x1024 .f32) (y : S1x512x1024.Idx) :
    ∃ pc ∈ (kernelRun3_C c i arg3 harg3 arg4 harg4 arg5 harg5 arg6 harg6 arg7 harg7 arg8 harg8 hc0 hc1 x0 x1 x2 x3 xs0).1, y ∈ pc.1.set :=
  View.cover_of_tiledL (kernelRun3_C c i arg3 harg3 arg4 harg4 arg5 harg5 arg6 harg6 arg7 harg7 arg8 harg8 hc0 hc1 x0 x1 x2 x3 xs0).1 S1x512x1024.size (by sl_kernel_rfl) y
/-- What case C leaves in the output tile's buffer. -/
def out3_C_4 (hc0 : ¬cond3_0 i) (hc1 : cond3_1 i) (xs0 : Vec F S512x1024 .f32) : Vec F S1x512x1024 .f32 :=
  VO3_4.read (Elt F) (VO3_4.writes (Elt F) VO3_4.junk (kernelRun3_C c i arg3 harg3 arg4 harg4 arg5 harg5 arg6 harg6 arg7 harg7 arg8 harg8 hc0 hc1 x0 x1 x2 x3 xs0).1)
theorem scover3_C_0 (hc0 : ¬cond3_0 i) (hc1 : cond3_1 i) (xs0 : Vec F S512x1024 .f32) (y : S512x1024.Idx) :
    ∃ pc ∈ (kernelRun3_C c i arg3 harg3 arg4 harg4 arg5 harg5 arg6 harg6 arg7 harg7 arg8 harg8 hc0 hc1 x0 x1 x2 x3 xs0).2.1, y ∈ pc.1.set :=
  View.cover_of_tiledL (kernelRun3_C c i arg3 harg3 arg4 harg4 arg5 harg5 arg6 harg6 arg7 harg7 arg8 harg8 hc0 hc1 x0 x1 x2 x3 xs0).2.1 S512x1024.size (by sl_kernel_rfl) y
/-- What case C leaves in the accumulator. -/
def sout3_C_0 (hc0 : ¬cond3_0 i) (hc1 : cond3_1 i) (xs0 : Vec F S512x1024 .f32) : Vec F S512x1024 .f32 :=
  VS3_0.read (Elt F) (VS3_0.writes (Elt F) VS3_0.junk (kernelRun3_C c i arg3 harg3 arg4 harg4 arg5 harg5 arg6 harg6 arg7 harg7 arg8 harg8 hc0 hc1 x0 x1 x2 x3 xs0).2.1)

end Cases

/-! ## The cases at a point of the grid -/

/-- Case A at point `t` (j = 0): on the point's memrefs and input blocks. -/
abbrev caseA (c : Dev nD) (t : Fin cfg3.N) (h0 : t.val % 4 = 0) (h1 : ¬t.val % 4 = 3) : Vec F S1x512x1024 .f32 × Vec F S512x1024 .f32 :=
  (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) ((hcond3_0 t).mpr h0) (fun h => h1 ((hcond3_1 t).mp h)),
   sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) ((hcond3_0 t).mpr h0) (fun h => h1 ((hcond3_1 t).mp h)))
/-- Case B at point `t` (j = 1, 2), over the accumulator `xs0`. -/
abbrev caseB (c : Dev nD) (t : Fin cfg3.N) (h0 : ¬t.val % 4 = 0) (h1 : ¬t.val % 4 = 3) (xs0 : Vec F S512x1024 .f32) : Vec F S1x512x1024 .f32 × Vec F S512x1024 .f32 :=
  (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) (fun h => h1 ((hcond3_1 t).mp h)) xs0,
   sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) (fun h => h1 ((hcond3_1 t).mp h)) xs0)
/-- Case C at point `t` (j = 3), over the accumulator `xs0`. -/
abbrev caseC (c : Dev nD) (t : Fin cfg3.N) (h0 : ¬t.val % 4 = 0) (h1 : t.val % 4 = 3) (xs0 : Vec F S512x1024 .f32) : Vec F S1x512x1024 .f32 × Vec F S512x1024 .f32 :=
  (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) ((hcond3_1 t).mpr h1) xs0,
   sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t) (fun h => h0 ((hcond3_0 t).mp h)) ((hcond3_1 t).mpr h1) xs0)

/-! ## What the output tile's buffer and the accumulator hold after each point -/

/-- THE ACCUMULATION: (output tile's buffer, accumulator) after the body at position `n`. -/
def outsAt3 (c : Dev nD) : (n : ℕ) → n < cfg3.N → Vec F S1x512x1024 .f32 × Vec F S512x1024 .f32
  | 0, hn => caseA V c ⟨0, hn⟩ (Nat.zero_mod 4) (by show ¬ (0 % 4 = 3); decide)
  | n + 1, hn =>
    if h0 : (n + 1) % 4 = 0 then
      if h1 : (n + 1) % 4 = 3 then False.elim (by omega)
      else caseA V c ⟨n + 1, hn⟩ h0 h1
    else
      if h1 : (n + 1) % 4 = 3 then caseC V c ⟨n + 1, hn⟩ h0 h1 (outsAt3 c n (Nat.lt_of_succ_lt hn)).2
      else caseB V c ⟨n + 1, hn⟩ h0 h1 (outsAt3 c n (Nat.lt_of_succ_lt hn)).2

theorem outsAt3_A (c : Dev nD) (t : Fin cfg3.N) (h0 : t.val % 4 = 0) (h1 : ¬t.val % 4 = 3) :
    outsAt3 V c t.val t.isLt = caseA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = caseB V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = caseC V c t h0 h1 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first, the plain invariant (the accumulator at anything); afterwards the accumulator at
    what the position before left, the other calls' buffers closed beside it, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 (F := F) c) ∗ (∃ r, prngReg c r)) := by
  cases n with
  | zero => exact absurd rfl hz
  | succ n => rfl

/-! ## The region's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. The inputs' memrefs hold their blocks; the position mod 4 says which case the point is in; the
    invariant hands the body the accumulator at what the position before left (at anything before the first), and takes it
    back at this position's contents; in cases A and B the output tile's buffer is handed back untouched, in case C it
    holds the case's store. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 4 = 0
  · by_cases h1 : t.val % 4 = 3
    · exfalso; omega
    · -- case A
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      dsimp only [caseA]
      unfold sout3_A_0; (try dsimp only)
      by_cases hz : t.val = 0
      · rw [PhiS3_castSucc V c t, PhiS3_zero V c _ _ hz, PhiA3_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- case C
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      dsimp only [caseC]
      unfold out3_C_4 sout3_C_0; (try dsimp only)
      have hz : t.val ≠ 0 := by omega
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C_4 c _ _ _ _ _ _ _ _ _ _ _ _ _ _ _ _ _ _ _ _)
    · -- case B
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      dsimp only [caseB]
      unfold sout3_B_0; (try dsimp only)
      have hz : t.val ≠ 0 := by omega
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the plain one back: the accumulator's contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hoth⟩, Hg⟩
  isplitl [HS0 Hoth]
  · isplitl [HS0]
    · iexists _; iexact HS0
    iexact Hoth
  iexact Hg

/-- The same after the last point. -/
theorem hout3 (c : Dev nD) : (dat3 V c).Φ (Fin.last cfg3.N) ⊢ Pipeline.ΦA spec3 c :=
  Phi3_out V c _ (by rw [Fin.val_last]; have : cfg3.N = 64 := N_3; omega)

end Cert.KernelIdeal.Hand

end
-- ==== Proof.KI.Run.lean ====
/-
  THE RUN of the whole program, read at any float instance: @main is nine host reshapes, then the three projection calls
  each followed by one reshape, then the attention call. The core's unscoped buffers are followed through @main as a fold
  from the launch memory: a host stretch applies its operations; a call replaces its arrays by what its pipeline leaves
  (`Dat.arrAt … N` of that call's proof data at the contents it was entered with) and touches nothing else.
  Each call is one segment of the several-regions launch, over the thread state "every unscoped buffer at the boundary's
  contents, the generator register at some state, nothing owed"; the attention call's invariant, which tracks its
  accumulator, is entered from and returned to the plain one. The launch theorem then gives: every weakly fair execution
  terminates, nothing faults, and at the end EVERY unscoped buffer holds the fold's last value `W8`. Read at the argument
  arrays that is the frame claim (no stretch and no call writes an argument); read at the result it is the attention
  call's array, whose entry contents are the three projections' arrays reshaped.
-/
import proofs.«135758_j57062935495338_1_alg».proof.Proof.KI.Proj0
import proofs.«135758_j57062935495338_1_alg».proof.Proof.KI.Proj1
import proofs.«135758_j57062935495338_1_alg».proof.Proof.KI.Proj2
import proofs.«135758_j57062935495338_1_alg».proof.Proof.KI.Attn
import proofs.«135758_j57062935495338_1_alg».proof.Proof.Gen.KernelIdeal.Regions

-- membership in a rectangle of these extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the nine reshapes (call 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b

/-- After call 0: its arrays at what the pipeline leaves (the inputs as entered, the result's write-backs folded), every
    other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the reshape of the projected queries (call 1's entry). -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b

/-- After call 1: its arrays at what the pipeline leaves (the inputs as entered, the result's write-backs folded), every
    other buffer as entered. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-- After the reshape of the projected keys (call 2's entry). -/
abbrev W5 : Dev nD → Valuation τ sig (Elt F) := fun c => StableHlo.after hostOps2 (W4 m ρ c)
abbrev Vin2 : (c : Dev nD) → (b : Ref sig .tc) → Buf (Elt F) ((c : Thread nD τ).loc b) := fun c b => W5 m ρ c b

/-- After call 2: its arrays at what the pipeline leaves (the inputs as entered, the result's write-backs folded), every
    other buffer as entered. -/
def W6 (c : Dev nD) : Valuation τ sig (Elt F) :=
  Pipeline.withArrays spec2 c (W5 m ρ c) fun w => (dat2 (Vin2 m ρ) c).arrAt w cfg2.N
theorem W6_arr (c : Dev nD) (w : Fin cfg2.W) :
    W6 m ρ c (Proc.devRef .tc (Pipeline.arrRef spec2 w)) = (dat2 (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev Vout2 : (c : Dev nD) → (b : Ref sig .tc) → Buf (Elt F) ((c : Thread nD τ).loc b) := fun c b => W6 m ρ c b
theorem hF2 (c : Dev nD) (w : Fin cfg2.W) : (dat2 (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)

/-- After the reshape of the projected values (the attention call's entry). -/
abbrev W7 : Dev nD → Valuation τ sig (Elt F) := fun c => StableHlo.after hostOps3 (W6 m ρ c)
abbrev Vin3 : (c : Dev nD) → (b : Ref sig .tc) → Buf (Elt F) ((c : Thread nD τ).loc b) := fun c b => W7 m ρ c b

/-- After call 3: its arrays at what the pipeline leaves (the inputs as entered, the result's write-backs folded), every
    other buffer as entered. -/
def W8 (c : Dev nD) : Valuation τ sig (Elt F) :=
  Pipeline.withArrays spec3 c (W7 m ρ c) fun w => (dat3 (Vin3 m ρ) c).arrAt w cfg3.N
theorem W8_arr (c : Dev nD) (w : Fin cfg3.W) :
    W8 m ρ c (Proc.devRef .tc (Pipeline.arrRef spec3 w)) = (dat3 (Vin3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev Vout3 : (c : Dev nD) → (b : Ref sig .tc) → Buf (Elt F) ((c : Thread nD τ).loc b) := fun c b => W8 m ρ c b
theorem hF3 (c : Dev nD) (w : Fin cfg3.W) : (dat3 (Vin3 m ρ) c).arrAt w cfg3.N = Vout3 m ρ c (Pipeline.arrRef spec3 w) :=
  (W8_arr m ρ c w).symm
theorem hrest3 (c : Dev nD) : ∀ b, b ∉ Finset.univ.image (Pipeline.arrRef spec3) → Vout3 m ρ c b = Vin3 m ρ c b :=
  fun b hb => W8_of_ne m ρ c b fun w e => hb (Finset.mem_image.mpr ⟨w, Finset.mem_univ _, e⟩)

/-! ## The arguments end as launched -/

/-- A buffer that no host stretch writes and that is no array of a projection call reaches the attention call as launched. -/
theorem W7_arg (c : Dev nD) (r : Ref sig .tc) (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  (W8_of_ne m ρ c main_arg0 (by decide)).trans
    (W7_arg m ρ c main_arg0 (by decide) (by decide) (by decide) (by decide) (by decide) (by decide) (by decide))
theorem W8_main_arg1 (c : Dev nD) : W8 m ρ c (Proc.devRef .tc main_arg1) = m ((c : Thread nD τ).loc main_arg1) :=
  (W8_of_ne m ρ c main_arg1 (by decide)).trans
    (W7_arg m ρ c main_arg1 (by decide) (by decide) (by decide) (by decide) (by decide) (by decide) (by decide))
theorem W8_main_arg2 (c : Dev nD) : W8 m ρ c (Proc.devRef .tc main_arg2) = m ((c : Thread nD τ).loc main_arg2) :=
  (W8_of_ne m ρ c main_arg2 (by decide)).trans
    (W7_arg m ρ c main_arg2 (by decide) (by decide) (by decide) (by decide) (by decide) (by decide) (by decide))
theorem W8_main_arg3 (c : Dev nD) : W8 m ρ c (Proc.devRef .tc main_arg3) = m ((c : Thread nD τ).loc main_arg3) :=
  ((W8_arr m ρ c 3).trans (((dat3 (Vin3 m ρ) c).arrAt_in 3 rfl _).trans (A_eq3 (Vin3 m ρ) c 3))).trans
    (W7_arg m ρ c main_arg3 (by decide) (by decide) (by decide) (by decide) (by decide) (by decide) (by decide))
theorem W8_main_arg4 (c : Dev nD) : W8 m ρ c (Proc.devRef .tc main_arg4) = m ((c : Thread nD τ).loc main_arg4) :=
  (W8_of_ne m ρ c main_arg4 (by decide)).trans
    (W7_arg m ρ c main_arg4 (by decide) (by decide) (by decide) (by decide) (by decide) (by decide) (by decide))
theorem W8_main_arg5 (c : Dev nD) : W8 m ρ c (Proc.devRef .tc main_arg5) = m ((c : Thread nD τ).loc main_arg5) :=
  (W8_of_ne m ρ c main_arg5 (by decide)).trans
    (W7_arg m ρ c main_arg5 (by decide) (by decide) (by decide) (by decide) (by decide) (by decide) (by decide))
theorem W8_main_arg6 (c : Dev nD) : W8 m ρ c (Proc.devRef .tc main_arg6) = m ((c : Thread nD τ).loc main_arg6) :=
  (W8_of_ne m ρ c main_arg6 (by decide)).trans
    (W7_arg m ρ c main_arg6 (by decide) (by decide) (by decide) (by decide) (by decide) (by decide) (by decide))
theorem W8_main_arg7 (c : Dev nD) : W8 m ρ c (Proc.devRef .tc main_arg7) = m ((c : Thread nD τ).loc main_arg7) :=
  (W8_of_ne m ρ c main_arg7 (by decide)).trans
    (W7_arg m ρ c main_arg7 (by decide) (by decide) (by decide) (by decide) (by decide) (by decide) (by decide))
theorem W8_main_arg8 (c : Dev nD) : W8 m ρ c (Proc.devRef .tc main_arg8) = m ((c : Thread nD τ).loc main_arg8) :=
  (W8_of_ne m ρ c main_arg8 (by decide)).trans
    (W7_arg m ρ c main_arg8 (by decide) (by decide) (by decide) (by decide) (by decide) (by decide) (by decide))
theorem W8_main_arg9 (c : Dev nD) : W8 m ρ c (Proc.devRef .tc main_arg9) = m ((c : Thread nD τ).loc main_arg9) :=
  (W8_of_ne m ρ c main_arg9 (by decide)).trans
    (W7_arg m ρ c main_arg9 (by decide) (by decide) (by decide) (by decide) (by decide) (by decide) (by decide))

/-- The result: the attention call's output array after its last point. -/
theorem W8_main_v15 (c : Dev nD) : W8 m ρ c (Proc.devRef .tc main_v15) = (dat3 (Vin3 m ρ) c).arrAt 4 cfg3.N :=
  W8_arr m ρ c 4

/-! ## The proof data family and the thread state -/

/-- No pipeline has a prefetched table. -/
abbrev tadm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) tadm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The calls as segments -/

set_option backward.isDefEq.respectTransparency.types false in
/-- Call 0 as a segment: entered from every unscoped buffer at the contents before it, left at the contents after it. Its
    arrays are split out of the unscoped buffers and put back at what the pipeline leaves; the generator register goes into
    the region invariant and comes out; nothing is owed; the kernel has no semaphore of its own. -/
def reg0 : Pipeline.RegionSeg (pcfgs (F := F)) tadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) tadm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at the contents before it, left at the contents after it. Its
    arrays are split out of the unscoped buffers and put back at what the pipeline leaves; the generator register goes into
    the region invariant and comes out; nothing is owed; the kernel has no semaphore of its own. -/
def reg1 : Pipeline.RegionSeg (pcfgs (F := F)) tadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) tadm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at the contents before it, left at the contents after it. Its
    arrays are split out of the unscoped buffers and put back at what the pipeline leaves; the generator register goes into
    the region invariant and comes out; nothing is owed; the kernel has no semaphore of its own. -/
def reg2 : Pipeline.RegionSeg (pcfgs (F := F)) tadm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) tadm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tadm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered from every unscoped buffer at the contents before it, left at the contents after it. Its
    arrays are split out of the unscoped buffers and put back at what the pipeline leaves; the generator register goes into
    the region invariant and comes out; nothing is owed; the kernel has no semaphore of its own. -/
def reg3 : Pipeline.RegionSeg (pcfgs (F := F)) tadm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) tadm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (tadm (F := F) 3).1
          ∗ Pipeline.scopedRest spec3 c) : sProp 𝕄) ⊢ Pipeline.ΦA spec3 c := by
      unfold Pipeline.ΦA
      iintro ⟨Hp, -, Hr⟩
      isplitl [Hr]; · iexact Hr
      iexact Hp
    exact h.trans (hin3 (Vin3 m ρ) c)
  hout c := by
    rw [Pipeline.ownSems0_none]
    have h : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    exact (hout3 (Vin3 m ρ) c).trans h
  hexit c := by
    have hjoin := Pipeline.unscopedBufs_of_arrays (p := 3) (pcfgs (F := F)) tadm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) tadm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments. -/
theorem main_run (c : Dev nD) : main (F := F) c = Pipeline.Seg.run (msegs m ρ) := (main_chain c).trans (by chain_rfl)

set_option backward.isDefEq.respectTransparency.types false in
/-- From any memory with zero counters every weakly fair execution of @main terminates, nothing faulting, and every final
    state holds each unscoped buffer of each core at the fold's last value. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) tadm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩) (run_named m ρ)

end Cert.KernelIdeal.Hand

end
-- ==== Proof.Spec.lean ====
/-
  The specification both programs are compared with, as ONE function of the ten argument arrays over the
  extended reals, index by index:
    proj x w b (β, s, e) = max (∑ d, x(β, s, d) · w(0, 0, d, e) + b(e)) 0          (a per-token linear map, bias, relu)
    attn qp kp vp mask (β, s, e)
        = max (∑ κ, (max (∑ d, qp(β, s, d) · kp(β, κ, d)) 0 · 2⁻⁵ + mask(0, s, κ)) · vp(β, κ, e)) 0
  (unnormalised relu attention: relu of the scores, the scale 1/√1024 = 2⁻⁵, the additive mask, the product with the
  values, relu), and G = attn of the three projections. The two-dimensional forms are what the pallas_calls see after
  the host's reshapes: rows r = β · 2048 + s.
  Also here: the two laws the comparison needs. Regrouping a sum over 2048 keys as four consecutive runs of 512
  (addition of extended reals is commutative and associative, so no finiteness is needed), and division by √1024
  being multiplication by 2⁻⁵ on every extended real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Sx : Shape := ⟨3, ![4, 2048, 1024]⟩
abbrev Sm : Shape := ⟨3, ![1, 2048, 2048]⟩
abbrev Sw : Shape := ⟨4, ![1, 1, 1024, 1024]⟩
abbrev Sb : Shape := ⟨1, ![1024]⟩
abbrev Sx2 : Shape := ⟨2, ![8192, 1024]⟩
abbrev Sw2 : Shape := ⟨2, ![1024, 1024]⟩
abbrev Sb2 : Shape := ⟨2, ![1, 1024]⟩

/-- The scale the kernel multiplies the scores by: the f32 word of 2⁻⁵ = 1/√1024. -/
def scale : EReal := Scalar.ofBits (F := Ideal) .f32 0x3D000000#32

/-- A projection on the flattened rows: relu (x · w + b). -/
def proj2 (x : Sx2.Idx → EReal) (w : Sw2.Idx → EReal) (b : Sb2.Idx → EReal) : Sx2.Idx → EReal := fun i =>
  max (∑ d : Fin 1024, x (ix2 (i 0) d) * w (ix2 d (i 1)) + b (ix2 0 (i 1))) 0

/-- The same on the arrays as the caller passes them. -/
def proj (x : Sx.Idx → EReal) (w : Sw.Idx → EReal) (b : Sb.Idx → EReal) : Sx.Idx → EReal := fun i =>
  max (∑ d : Fin 1024, x (ix3 (i 0) (i 1) d) * w (ix4 0 0 d (i 2)) + b (ix1 (i 2))) 0

/-- The score of query row `s` against key row `κ` of batch `β`, after relu, scale and mask. -/
def logit (qp kp : Sx.Idx → EReal) (mask : Sm.Idx → EReal) (β : Fin 4) (s κ : Fin 2048) : EReal :=
  max (∑ d : Fin 1024, qp (ix3 β s d) * kp (ix3 β κ d)) 0 * scale + mask (ix3 0 s κ)

/-- Unnormalised relu attention. -/
def attn (qp kp vp : Sx.Idx → EReal) (mask : Sm.Idx → EReal) : Sx.Idx → EReal := fun i =>
  max (∑ κ : Fin 2048, logit qp kp mask (i 0) (i 1) κ * vp (ix3 (i 0) κ (i 2))) 0

/-- The whole computation. -/
def G (q k v : Sx.Idx → EReal) (mask : Sm.Idx → EReal) (wq wk wv : Sw.Idx → EReal) (bq bk bv : Sb.Idx → EReal) :
    Sx.Idx → EReal :=
  attn (proj q wq bq) (proj k wk bk) (proj v wv bv) mask

/-- The key of run `j` (of four) at offset `κ'` (of 512). -/
def key (j : Fin 4) (κ' : Fin 512) : Fin 2048 := ⟨j.val * 512 + κ'.val, by omega⟩

/-- A sum over the 2048 keys is the sum over the four runs of the sums over each run's 512 keys. -/
theorem sum_keys (f : Fin 2048 → EReal) : ∑ κ : Fin 2048, f κ = ∑ j : Fin 4, ∑ κ' : Fin 512, f (key j κ') := by
  -- the pairs (run, offset) are in bijection with the keys by (j, κ') ↦ κ' + 512 · j
  rw [← Finset.sum_product']
  symm
  refine Fintype.sum_equiv (finProdFinEquiv (m := 4) (n := 512)) _ _ ?_
  rintro ⟨j, κ'⟩
  congr 1
  apply Fin.ext
  simp only [key, finProdFinEquiv_apply_val]
  omega

/-- The f32 word 0x3D000000 is 2⁻⁵. -/
theorem scale_eq : scale = ((1 / 32 : ℝ) : EReal) := by
  -- sign 0, exponent field 122, fraction 0: 2 ^ 23 · 2 ^ (122 - 127 - 23) = 2⁻⁵
  show Ideal.ofBits .f32 0x3D000000#32 = _
  simp [Ideal.ofBits, Ideal.ieee, -EReal.coe_mul]
  norm_num

/-- Dividing by the square root of the f32 word of 1024 is multiplying by the scale, on every extended real. -/
theorem div_sqrt_1024 (x : EReal) :
    Ideal.div x (Ideal.sqrt (Scalar.ofBits (F := Ideal) .f32 0x44800000#32)) = x * scale := by
  -- the word is 1024 (exponent field 137, fraction 0), its square root is 32, and 32 ≠ 0
  have h : Scalar.ofBits (F := Ideal) .f32 0x44800000#32 = ((1024 : ℝ) : EReal) := by
    show Ideal.ofBits .f32 0x44800000#32 = _
    simp [Ideal.ofBits, Ideal.ieee, -EReal.coe_mul]
    norm_num
  have hs : Real.sqrt 1024 = 32 := by
    rw [Real.sqrt_eq_iff_mul_self_eq (by norm_num) (by norm_num)]; norm_num
  rw [h, Ideal.sqrt_coe, if_neg (by norm_num), hs, Ideal.div_coe (by norm_num), scale_eq]

end Cert.Spec

end
-- ==== Proof.KI.ProjValue.lean ====
/-
  What each projection call leaves in its result array, at the ideal instance: the whole array after the region is
  relu (x · w + b) of the region's three operand arrays, index by index (`Spec.proj2`). Point t writes back rows
  [1024 t, 1024 t + 1024), each entry of the block being the body's value at that row and column; the eight blocks tile
  the array, so the array after the last point is that one function.
  In order: the matrix product read at an entry as a sum over the contracted coordinate (its operand indices axis by
  axis), the bias row spread over the rows, and with them the stored value at an entry of a block,
  max (∑ d, x(p, d) · w(d, q) + b(0, q)) 0 (rounding to the narrower format is the identity on extended reals and the
  zero word is 0). Then per call: where each window's block sits at point t (the rows and the result at block row t,
  the weights and the bias at block 0), each block's entries as entries of its array, the written-back block as block t
  of the projection, membership of an index in a block by its coordinates' ranges, the cover (row r is in the block of
  point r / 1024), and the array after the last point.
-/
import proofs.«135758_j57062935495338_1_alg».proof.Proof.KI.Proj0
import proofs.«135758_j57062935495338_1_alg».proof.Proof.KI.Proj1
import proofs.«135758_j57062935495338_1_alg».proof.Proof.KI.Proj2
import proofs.«135758_j57062935495338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! The lemmas the three theorems at the end are proved from. -/
namespace ProjV

/-! ## The matrix product's operand indices

The product contracts the left operand's axis 1 with the right operand's axis 0: at output index (p, q) and contraction
coordinate k the left operand is read at (p, k) and the right at (k, q). One lemma per operand axis. -/

/-- The left operand's row coordinate is the output's row. -/
theorem mm_lhs_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column coordinate is the contracted coordinate. -/
theorem mm_lhs_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
/-- The right operand's row coordinate is the contracted coordinate. -/
theorem mm_rhs_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
/-- The right operand's column coordinate is the output's column. -/
theorem mm_rhs_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator, at entry (p, q): the sum over the 1024 contracted coordinates of the
    products of row p of the left operand with column q of the right. -/
theorem mm_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ d : Fin 1024, a (ix2 p d) * b (ix2 d q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun d _ => ?_
  have hd := contrEquiv1_symm_val dot_S1024x1024_S1024x1024_S1024x1024_1_0_0_1_n_n 1024 rfl rfl d
  have el : dot_S1024x1024_S1024x1024_S1024x1024_1_0_0_1_n_n.lhsIdx (ix2 p q) ((contrEquiv1 dot_S1024x1024_S1024x1024_S1024x1024_1_0_0_1_n_n 1024 rfl rfl).symm d) = ix2 p d := funext fun a => Fin.ext (by
    match a with
    | ⟨0, _⟩ => exact mm_lhs_0 _ _
    | ⟨1, _⟩ => exact (mm_lhs_1 _ _).trans hd)
  have er : dot_S1024x1024_S1024x1024_S1024x1024_1_0_0_1_n_n.rhsIdx (ix2 p q) ((contrEquiv1 dot_S1024x1024_S1024x1024_S1024x1024_1_0_0_1_n_n 1024 rfl rfl).symm d) = ix2 d q := funext fun a => Fin.ext (by
    match a with
    | ⟨0, _⟩ => exact (mm_rhs_0 _ _).trans hd
    | ⟨1, _⟩ => exact mm_rhs_1 _ _)
  rw [el, er]

/-- The bias row spread over the 1024 rows, at entry (p, q): the bias at column q. -/
theorem bias_apply (x2 : Vec Ideal S1x1024 .f32) (p q : Fin 1024) :
    broadcastTo S1024x1024 x2 broadcasts_S1x1024_S1024x1024 (ix2 p q) = x2 (ix2 0 q) :=
  broadcastTo_apply x2 broadcasts_S1x1024_S1024x1024 (ix2 p q) (ix2 0 q) fun a => by
    match a with
    | ⟨0, _⟩ => rfl
    | ⟨1, _⟩ => rfl

/-- The body's stored value at entry (p, q) of the block, over the extended reals: the row of the rows block times the
    column of the weights, plus the bias at that column, cut below at zero. -/
theorem pay0_apply (x0 x1 : Vec Ideal S1024x1024 .f32) (x2 : Vec Ideal S1x1024 .f32) (p q : Fin 1024) :
    k0_pay1 x0 x1 x2 (ix2 p q) = max (∑ d : Fin 1024, x0 (ix2 p d) * x1 (ix2 d q) + x2 (ix2 0 q)) 0 := by
  unfold k0_pay1
  simp only [shapeCast_self]
  rw [truncf_apply, maximumf_apply, addf_apply, broadcast_apply, mm_apply, bias_apply]
  exact congrArg (max (∑ d : Fin 1024, x0 (ix2 p d) * x1 (ix2 d q) + x2 (ix2 0 q))) Ideal.ofBits_zero_f32

/-! ## Call 0: from the blocks to the array -/

/-- The offsets (0, 0) of an access to a whole block are the constant zero function. -/
theorem off_zero : (![0, 0] : Fin 2 → Nat) = fun _ => 0 := funext fun a => by fin_cases a <;> rfl

/-- The three operand arrays of call 0 as the region finds them, and the three staged blocks at a point, each under
    its literal type. -/
abbrev xarr0 (c : Dev nD) : Vec Ideal S8192x1024 .f32 := V c main_v3
abbrev warr0 (c : Dev nD) : Vec Ideal S1024x1024 .f32 := V c main_v0
abbrev barr0 (c : Dev nD) : Vec Ideal S1x1024 .f32 := V c main_v6
abbrev xblk0 (c : Dev nD) (t : Fin cfg0.N) : Vec Ideal S1024x1024 .f32 := iblk0 V c 0 t
abbrev wblk0 (c : Dev nD) (t : Fin cfg0.N) : Vec Ideal S1024x1024 .f32 := iblk0 V c 1 t
abbrev bblk0 (c : Dev nD) (t : Fin cfg0.N) : Vec Ideal S1x1024 .f32 := iblk0 V c 2 t

/-- The index maps of call 0 over its eight points: the rows window and the result window sit at block row t, column
    block 0; the weights and the bias row at block (0, 0) throughout. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Call 0's grid has eight points. -/
theorem lt8_0 (t : Fin cfg0.N) : t.val < 8 := t.isLt

/-- Entry (p, d) of the rows block at point t is entry (1024 t + p, d) of the rows array. -/
theorem xblk0_apply (c : Dev nD) (t : Fin cfg0.N) (p d : Fin 1024) :
    xblk0 V c t (ix2 p d) = xarr0 V c (ix2 ⟨t.val * 1024 + p.val, by have := lt8_0 t; omega⟩ d) := by
  obtain ⟨e0, e1, -⟩ := idx_facts0 t
  unfold xblk0 iblk0
  rw [View.read_apply]
  show V c main_v3 _ = V c main_v3 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * d.val = d.val; rw [e1]; omega

/-- The weights block at every point is the weights array. -/
theorem wblk0_apply (c : Dev nD) (t : Fin cfg0.N) (d q : Fin 1024) :
    wblk0 V c t (ix2 d q) = warr0 V c (ix2 d q) := by
  obtain ⟨-, -, e0, e1, -⟩ := idx_facts0 t
  unfold wblk0 iblk0
  rw [View.read_apply]
  show V c main_v0 _ = V c main_v0 _
  congr 1
  funext a
  apply Fin.ext
  match a with
  | ⟨0, _⟩ => show win0_1.index t (0 : Fin 2) * 1024 + 1 * d.val = d.val; rw [e0]; omega
  | ⟨1, _⟩ => show win0_1.index t (1 : Fin 2) * 1024 + 1 * q.val = q.val; rw [e1]; omega

/-- The bias block at every point is the bias row. -/
theorem bblk0_apply (c : Dev nD) (t : Fin cfg0.N) (q : Fin 1024) :
    bblk0 V c t (ix2 0 q) = barr0 V c (ix2 0 q) := by
  obtain ⟨-, -, -, -, e0, e1, -⟩ := idx_facts0 t
  unfold bblk0 iblk0
  rw [View.read_apply]
  show V c main_v6 _ = V c main_v6 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = q.val; rw [e1]; omega

/-- The body's value at entry (p, q) of point t's block is the projection of the three arrays at row 1024 t + p,
    column q. -/
theorem point0_value (c : Dev nD) (t : Fin cfg0.N) (p q : Fin 1024) :
    k0_pay1 (xblk0 V c t) (wblk0 V c t) (bblk0 V c t) (ix2 p q)
      = Cert.Spec.proj2 (xarr0 V c) (warr0 V c) (barr0 V c) (ix2 ⟨t.val * 1024 + p.val, by have := lt8_0 t; omega⟩ q) := by
  rw [pay0_apply]
  unfold Cert.Spec.proj2
  rw [bblk0_apply]
  refine congrArg (fun s => max (s + barr0 V c (ix2 0 q)) 0) ?_
  exact Finset.sum_congr rfl fun d _ => by rw [xblk0_apply, wblk0_apply]

/-- What point t writes back is block t of the projection of the three arrays. -/
theorem flushed0_eq (c : Dev nD) (t : Fin cfg0.N) :
    (dat0 (F := Ideal) V c).flushed 3 t
      = ((cfg0.win 3).blk t).view.read (Elt Ideal) (Cert.Spec.proj2 (V c main_v3) (V c main_v0) (V c main_v6)) := by
  obtain ⟨-, -, -, -, -, -, e0, e1⟩ := idx_facts0 t
  show (cfg0.win 3).cut (grid0.coords t) ((dat0 V c).after 3 t) = _
  rw [after0_3]
  unfold out0_3
  rw [View.canon_unit_zero off_zero]
  simp only [View.ld_unit_zero (S := S1024x1024) off_zero, View.ld_unit_zero (S := S1x1024) off_zero]
  funext j
  obtain ⟨p, q, rfl⟩ : ∃ (p q : Fin 1024), j = ix2 p q := ⟨j 0, j 1, eq_ix2 j⟩
  rw [View.read_apply]
  show k0_pay1 (xblk0 V c t) (wblk0 V c t) (bblk0 V c t) (ix2 p q) = Cert.Spec.proj2 (xarr0 V c) (warr0 V c) (barr0 V c) (((cfg0.win 3).blk t).view.emb (ix2 p q))
  rw [point0_value]
  congr 1
  funext a
  apply Fin.ext
  match a with
  | ⟨0, _⟩ => show t.val * 1024 + p.val = win0_3.index t (0 : Fin 2) * 1024 + 1 * p.val; rw [e0]; omega
  | ⟨1, _⟩ => show q.val = win0_3.index t (1 : Fin 2) * 1024 + 1 * q.val; rw [e1]; omega

/-- An index of the result array is in point t's block iff each coordinate is in the block's range on its axis. -/
theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- The eight blocks tile the result array: row r lies in the block of point r / 1024. -/
theorem cover0 (i : S8192x1024.Idx) :
    ∃ t : Fin cfg0.N, (cfg0.win 3).flush t = true ∧ i ∈ ((cfg0.win 3).blk t).view.set := by
  have h0 : (i 0).val < 8192 := (i 0).isLt
  have h1 : (i 1).val < 1024 := (i 1).isLt
  have ht : (i 0).val / 1024 < 8 := by omega
  obtain ⟨-, -, -, -, -, -, e0, e1⟩ := idx_facts0 ⟨(i 0).val / 1024, ht⟩
  refine ⟨⟨(i 0).val / 1024, ht⟩, flush0_3 _, ?_⟩
  rw [mem_blk0]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, ht⟩ (1 : Fin 2) * 1024 ≤ (i 1).val ∧ (i 1).val < win0_3.index ⟨(i 0).val / 1024, ht⟩ (1 : Fin 2) * 1024 + 1024
    rw [e1]; omega

/-! ## Call 1: from the blocks to the array -/

/-- Call 1 stores the same expression of its three blocks as call 0. -/
theorem pay1_apply (x0 x1 : Vec Ideal S1024x1024 .f32) (x2 : Vec Ideal S1x1024 .f32) (p q : Fin 1024) :
    k1_pay1 x0 x1 x2 (ix2 p q) = max (∑ d : Fin 1024, x0 (ix2 p d) * x1 (ix2 d q) + x2 (ix2 0 q)) 0 :=
  pay0_apply x0 x1 x2 p q

/-- The three operand arrays of call 1 as the region finds them, and the three staged blocks at a point, each under
    its literal type. -/
abbrev xarr1 (c : Dev nD) : Vec Ideal S8192x1024 .f32 := V c main_v4
abbrev warr1 (c : Dev nD) : Vec Ideal S1024x1024 .f32 := V c main_v1
abbrev barr1 (c : Dev nD) : Vec Ideal S1x1024 .f32 := V c main_v7
abbrev xblk1 (c : Dev nD) (t : Fin cfg1.N) : Vec Ideal S1024x1024 .f32 := iblk1 V c 0 t
abbrev wblk1 (c : Dev nD) (t : Fin cfg1.N) : Vec Ideal S1024x1024 .f32 := iblk1 V c 1 t
abbrev bblk1 (c : Dev nD) (t : Fin cfg1.N) : Vec Ideal S1x1024 .f32 := iblk1 V c 2 t

/-- The index maps of call 1 over its eight points: the rows window and the result window sit at block row t, column
    block 0; the weights and the bias row at block (0, 0) throughout. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Call 1's grid has eight points. -/
theorem lt8_1 (t : Fin cfg1.N) : t.val < 8 := t.isLt

/-- Entry (p, d) of the rows block at point t is entry (1024 t + p, d) of the rows array. -/
theorem xblk1_apply (c : Dev nD) (t : Fin cfg1.N) (p d : Fin 1024) :
    xblk1 V c t (ix2 p d) = xarr1 V c (ix2 ⟨t.val * 1024 + p.val, by have := lt8_1 t; omega⟩ d) := by
  obtain ⟨e0, e1, -⟩ := idx_facts1 t
  unfold xblk1 iblk1
  rw [View.read_apply]
  show V c main_v4 _ = V c main_v4 _
  congr 1
  funext a
  apply Fin.ext
  match a with
  | ⟨0, _⟩ => show win1_0.index t (0 : Fin 2) * 1024 + 1 * p.val = t.val * 1024 + p.val; rw [e0]; omega
  | ⟨1, _⟩ => show win1_0.index t (1 : Fin 2) * 1024 + 1 * d.val = d.val; rw [e1]; omega

/-- The weights block at every point is the weights array. -/
theorem wblk1_apply (c : Dev nD) (t : Fin cfg1.N) (d q : Fin 1024) :
    wblk1 V c t (ix2 d q) = warr1 V c (ix2 d q) := by
  obtain ⟨-, -, e0, e1, -⟩ := idx_facts1 t
  unfold wblk1 iblk1
  rw [View.read_apply]
  show V c main_v1 _ = V c main_v1 _
  congr 1
  funext a
  apply Fin.ext
  match a with
  | ⟨0, _⟩ => show win1_1.index t (0 : Fin 2) * 1024 + 1 * d.val = d.val; rw [e0]; omega
  | ⟨1, _⟩ => show win1_1.index t (1 : Fin 2) * 1024 + 1 * q.val = q.val; rw [e1]; omega

/-- The bias block at every point is the bias row. -/
theorem bblk1_apply (c : Dev nD) (t : Fin cfg1.N) (q : Fin 1024) :
    bblk1 V c t (ix2 0 q) = barr1 V c (ix2 0 q) := by
  obtain ⟨-, -, -, -, e0, e1, -⟩ := idx_facts1 t
  unfold bblk1 iblk1
  rw [View.read_apply]
  show V c main_v7 _ = V c main_v7 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = q.val; rw [e1]; omega

/-- The body's value at entry (p, q) of point t's block is the projection of the three arrays at row 1024 t + p,
    column q. -/
theorem point1_value (c : Dev nD) (t : Fin cfg1.N) (p q : Fin 1024) :
    k1_pay1 (xblk1 V c t) (wblk1 V c t) (bblk1 V c t) (ix2 p q)
      = Cert.Spec.proj2 (xarr1 V c) (warr1 V c) (barr1 V c) (ix2 ⟨t.val * 1024 + p.val, by have := lt8_1 t; omega⟩ q) := by
  rw [pay1_apply]
  unfold Cert.Spec.proj2
  rw [bblk1_apply]
  refine congrArg (fun s => max (s + barr1 V c (ix2 0 q)) 0) ?_
  exact Finset.sum_congr rfl fun d _ => by rw [xblk1_apply, wblk1_apply]

/-- What point t writes back is block t of the projection of the three arrays. -/
theorem flushed1_eq (c : Dev nD) (t : Fin cfg1.N) :
    (dat1 (F := Ideal) V c).flushed 3 t
      = ((cfg1.win 3).blk t).view.read (Elt Ideal) (Cert.Spec.proj2 (V c main_v4) (V c main_v1) (V c main_v7)) := by
  obtain ⟨-, -, -, -, -, -, e0, e1⟩ := idx_facts1 t
  show (cfg1.win 3).cut (grid1.coords t) ((dat1 V c).after 3 t) = _
  rw [after1_3]
  unfold out1_3
  rw [View.canon_unit_zero off_zero]
  simp only [View.ld_unit_zero (S := S1024x1024) off_zero, View.ld_unit_zero (S := S1x1024) off_zero]
  funext j
  obtain ⟨p, q, rfl⟩ : ∃ (p q : Fin 1024), j = ix2 p q := ⟨j 0, j 1, eq_ix2 j⟩
  rw [View.read_apply]
  show k1_pay1 (xblk1 V c t) (wblk1 V c t) (bblk1 V c t) (ix2 p q) = Cert.Spec.proj2 (xarr1 V c) (warr1 V c) (barr1 V c) (((cfg1.win 3).blk t).view.emb (ix2 p q))
  rw [point1_value]
  congr 1
  funext a
  apply Fin.ext
  match a with
  | ⟨0, _⟩ => show t.val * 1024 + p.val = win1_3.index t (0 : Fin 2) * 1024 + 1 * p.val; rw [e0]; omega
  | ⟨1, _⟩ => show q.val = win1_3.index t (1 : Fin 2) * 1024 + 1 * q.val; rw [e1]; omega

/-- An index of the result array is in point t's block iff each coordinate is in the block's range on its axis. -/
theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v11).slice (win1_3.rect t)).set ↔ _
  rw [View.set_slice_whole, Rect.mem_set_unit]
  exact Iff.rfl

/-- The eight blocks tile the result array: row r lies in the block of point r / 1024. -/
theorem cover1 (i : S8192x1024.Idx) :
    ∃ t : Fin cfg1.N, (cfg1.win 3).flush t = true ∧ i ∈ ((cfg1.win 3).blk t).view.set := by
  have h0 : (i 0).val < 8192 := (i 0).isLt
  have h1 : (i 1).val < 1024 := (i 1).isLt
  have ht : (i 0).val / 1024 < 8 := by omega
  obtain ⟨-, -, -, -, -, -, e0, e1⟩ := idx_facts1 ⟨(i 0).val / 1024, ht⟩
  refine ⟨⟨(i 0).val / 1024, ht⟩, flush1_3 _, ?_⟩
  rw [mem_blk1]
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win1_3.index ⟨(i 0).val / 1024, ht⟩ (1 : Fin 2) * 1024 ≤ (i 1).val ∧ (i 1).val < win1_3.index ⟨(i 0).val / 1024, ht⟩ (1 : Fin 2) * 1024 + 1024
    rw [e1]; omega

/-! ## Call 2: from the blocks to the array -/

/-- Call 2 stores the same expression of its three blocks as call 0. -/
theorem pay2_apply (x0 x1 : Vec Ideal S1024x1024 .f32) (x2 : Vec Ideal S1x1024 .f32) (p q : Fin 1024) :
    k2_pay1 x0 x1 x2 (ix2 p q) = max (∑ d : Fin 1024, x0 (ix2 p d) * x1 (ix2 d q) + x2 (ix2 0 q)) 0 :=
  pay0_apply x0 x1 x2 p q

/-- The three operand arrays of call 2 as the region finds them, and the three staged blocks at a point, each under
    its literal type. -/
abbrev xarr2 (c : Dev nD) : Vec Ideal S8192x1024 .f32 := V c main_v5
abbrev warr2 (c : Dev nD) : Vec Ideal S1024x1024 .f32 := V c main_v2
abbrev barr2 (c : Dev nD) : Vec Ideal S1x1024 .f32 := V c main_v8
abbrev xblk2 (c : Dev nD) (t : Fin cfg2.N) : Vec Ideal S1024x1024 .f32 := iblk2 V c 0 t
abbrev wblk2 (c : Dev nD) (t : Fin cfg2.N) : Vec Ideal S1024x1024 .f32 := iblk2 V c 1 t
abbrev bblk2 (c : Dev nD) (t : Fin cfg2.N) : Vec Ideal S1x1024 .f32 := iblk2 V c 2 t

/-- The index maps of call 2 over its eight points: the rows window and the result window sit at block row t, column
    block 0; the weights and the bias row at block (0, 0) throughout. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Call 2's grid has eight points. -/
theorem lt8_2 (t : Fin cfg2.N) : t.val < 8 := t.isLt

/-- Entry (p, d) of the rows block at point t is entry (1024 t + p, d) of the rows array. -/
theorem xblk2_apply (c : Dev nD) (t : Fin cfg2.N) (p d : Fin 1024) :
    xblk2 V c t (ix2 p d) = xarr2 V c (ix2 ⟨t.val * 1024 + p.val, by have := lt8_2 t; omega⟩ d) := by
  obtain ⟨e0, e1, -⟩ := idx_facts2 t
  unfold xblk2 iblk2
  rw [View.read_apply]
  show V c main_v5 _ = V c main_v5 _
  congr 1
  funext a
  apply Fin.ext
  match a with
  | ⟨0, _⟩ => show win2_0.index t (0 : Fin 2) * 1024 + 1 * p.val = t.val * 1024 + p.val; rw [e0]; omega
  | ⟨1, _⟩ => show win2_0.index t (1 : Fin 2) * 1024 + 1 * d.val = d.val; rw [e1]; omega

/-- The weights block at every point is the weights array. -/
theorem wblk2_apply (c : Dev nD) (t : Fin cfg2.N) (d q : Fin 1024) :
    wblk2 V c t (ix2 d q) = warr2 V c (ix2 d q) := by
  obtain ⟨-, -, e0, e1, -⟩ := idx_facts2 t
  unfold wblk2 iblk2
  rw [View.read_apply]
  show V c main_v2 _ = V c main_v2 _
  congr 1
  funext a
  apply Fin.ext
  match a with
  | ⟨0, _⟩ => show win2_1.index t (0 : Fin 2) * 1024 + 1 * d.val = d.val; rw [e0]; omega
  | ⟨1, _⟩ => show win2_1.index t (1 : Fin 2) * 1024 + 1 * q.val = q.val; rw [e1]; omega

/-- The bias block at every point is the bias row. -/
theorem bblk2_apply (c : Dev nD) (t : Fin cfg2.N) (q : Fin 1024) :
    bblk2 V c t (ix2 0 q) = barr2 V c (ix2 0 q) := by
  obtain ⟨-, -, -, -, e0, e1, -⟩ := idx_facts2 t
  unfold bblk2 iblk2
  rw [View.read_apply]
  show V c main_v8 _ = V c main_v8 _
  congr 1
  funext a
  apply Fin.ext
  match a with
  | ⟨0, _⟩ => show win2_2.index t (0 : Fin 2) * 1 + 1 * 0 = 0; rw [e0]
  | ⟨1, _⟩ => show win2_2.index t (1 : Fin 2) * 1024 + 1 * q.val = q.val; rw [e1]; omega

/-- The body's value at entry (p, q) of point t's block is the projection of the three arrays at row 1024 t + p,
    column q. -/
theorem point2_value (c : Dev nD) (t : Fin cfg2.N) (p q : Fin 1024) :
    k2_pay1 (xblk2 V c t) (wblk2 V c t) (bblk2 V c t) (ix2 p q)
      = Cert.Spec.proj2 (xarr2 V c) (warr2 V c) (barr2 V c) (ix2 ⟨t.val * 1024 + p.val, by have := lt8_2 t; omega⟩ q) := by
  rw [pay2_apply]
  unfold Cert.Spec.proj2
  rw [bblk2_apply]
  refine congrArg (fun s => max (s + barr2 V c (ix2 0 q)) 0) ?_
  exact Finset.sum_congr rfl fun d _ => by rw [xblk2_apply, wblk2_apply]

/-- What point t writes back is block t of the projection of the three arrays. -/
theorem flushed2_eq (c : Dev nD) (t : Fin cfg2.N) :
    (dat2 (F := Ideal) V c).flushed 3 t
      = ((cfg2.win 3).blk t).view.read (Elt Ideal) (Cert.Spec.proj2 (V c main_v5) (V c main_v2) (V c main_v8)) := by
  obtain ⟨-, -, -, -, -, -, e0, e1⟩ := idx_facts2 t
  show (cfg2.win 3).cut (grid2.coords t) ((dat2 V c).after 3 t) = _
  rw [after2_3]
  unfold out2_3
  rw [View.canon_unit_zero off_zero]
  simp only [View.ld_unit_zero (S := S1024x1024) off_zero, View.ld_unit_zero (S := S1x1024) off_zero]
  funext j
  obtain ⟨p, q, rfl⟩ : ∃ (p q : Fin 1024), j = ix2 p q := ⟨j 0, j 1, eq_ix2 j⟩
  rw [View.read_apply]
  show k2_pay1 (xblk2 V c t) (wblk2 V c t) (bblk2 V c t) (ix2 p q) = Cert.Spec.proj2 (xarr2 V c) (warr2 V c) (barr2 V c) (((cfg2.win 3).blk t).view.emb (ix2 p q))
  rw [point2_value]
  congr 1
  funext a
  apply Fin.ext
  match a with
  | ⟨0, _⟩ => show t.val * 1024 + p.val = win2_3.index t (0 : Fin 2) * 1024 + 1 * p.val; rw [e0]; omega
  | ⟨1, _⟩ => show q.val = win2_3.index t (1 : Fin 2) * 1024 + 1 * q.val; rw [e1]; omega

/-- An index of the result array is in point t's block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v13).slice (win2_3.rect t)).set ↔ _
  rw [View.set_slice_whole, Rect.mem_set_unit]
  exact Iff.rfl

/-- The eight blocks tile the result array: row r lies in the block of point r / 1024. -/
theorem cover2 (i : S8192x1024.Idx) :
    ∃ t : Fin cfg2.N, (cfg2.win 3).flush t = true ∧ i ∈ ((cfg2.win 3).blk t).view.set := by
  have h0 : (i 0).val < 8192 := (i 0).isLt
  have h1 : (i 1).val < 1024 := (i 1).isLt
  have ht : (i 0).val / 1024 < 8 := by omega
  obtain ⟨-, -, -, -, -, -, e0, e1⟩ := idx_facts2 ⟨(i 0).val / 1024, ht⟩
  refine ⟨⟨(i 0).val / 1024, ht⟩, flush2_3 _, ?_⟩
  rw [mem_blk2]
  intro a
  match a with
  | ⟨0, _⟩ =>
    show win2_3.index ⟨(i 0).val / 1024, ht⟩ (0 : Fin 2) * 1024 ≤ (i 0).val ∧ (i 0).val < win2_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_3.index ⟨(i 0).val / 1024, ht⟩ (1 : Fin 2) * 1024 ≤ (i 1).val ∧ (i 1).val < win2_3.index ⟨(i 0).val / 1024, ht⟩ (1 : Fin 2) * 1024 + 1024
    rw [e1]; omega

end ProjV

open ProjV

/-! ## The three result arrays -/

/-- Call 0: the result array after the region is the projection of the arrays the region was entered with. -/
theorem arr0_value (c : Dev nD) :
    (dat0 (F := Ideal) V c).arrAt 3 cfg0.N = Cert.Spec.proj2 (V c main_v3) (V c main_v0) (V c main_v6) := by
  exact (dat0 (F := Ideal) V c).arrAt_eq_of_cover 3 (Cert.Spec.proj2 (V c main_v3) (V c main_v0) (V c main_v6))
    (fun t _ => flushed0_eq V c t) cover0

/-- Call 1. -/
theorem arr1_value (c : Dev nD) :
    (dat1 (F := Ideal) V c).arrAt 3 cfg1.N = Cert.Spec.proj2 (V c main_v4) (V c main_v1) (V c main_v7) := by
  exact (dat1 (F := Ideal) V c).arrAt_eq_of_cover 3 (Cert.Spec.proj2 (V c main_v4) (V c main_v1) (V c main_v7))
    (fun t _ => flushed1_eq V c t) cover1

/-- Call 2. -/
theorem arr2_value (c : Dev nD) :
    (dat2 (F := Ideal) V c).arrAt 3 cfg2.N = Cert.Spec.proj2 (V c main_v5) (V c main_v2) (V c main_v8) := by
  exact (dat2 (F := Ideal) V c).arrAt_eq_of_cover 3 (Cert.Spec.proj2 (V c main_v5) (V c main_v2) (V c main_v8))
    (fun t _ => flushed2_eq V c t) cover2

end Cert.KernelIdeal.Hand

end
-- ==== Proof.KI.AttnValuePieces.lean ====
/-
  What the attention body's stores leave, piece by piece, as values of the point's input blocks. In every case the
  accumulator is left at the accumulate step's value over the four loaded blocks and over what the accumulator held when
  it was read: in the middle and last cases that is what the point before left; in the first case the reset has just
  stored its value there, and the later load reads that back. In the last case the output tile is left at the emit
  step's value of the accumulator the accumulate step has just stored. Every load and store goes through the whole
  buffer (the unit rectangle at zero offsets), so one covering store leaves exactly its payload.
-/
import proofs.«135758_j57062935495338_1_alg».proof.Proof.KI.Attn
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 buffer, as the constant function. -/
theorem zeros2 : (![0, 0] : Fin 2 → Nat) = fun _ => 0 := funext fun a => by fin_cases a <;> rfl
/-- The zero offsets of a rank-3 buffer, as the constant function. -/
theorem zeros3 : (![0, 0, 0] : Fin 3 → Nat) = fun _ => 0 := funext fun a => by fin_cases a <;> rfl

section Pieces
variable (c : Dev nD) (i : grid3.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x512 .f32) (harg6 : arg6.IsWhole) (arg7 : Memref sig .tc .vmem S1x512x1024 .f32) (harg7 : arg7.IsWhole) (arg8 : Memref sig .tc .vmem S512x1024 .f32) (harg8 : arg8.IsWhole)
variable (x0 : Vec F S1x512x1024 .bf16) (x1 : Vec F S1x512x1024 .bf16) (x2 : Vec F S1x512x1024 .bf16) (x3 : Vec F S1x512x512 .f32)

/-- A middle point (key tile 1 or 2): the accumulator is left at the accumulate step over what it held. -/
theorem acc_mid (hc0 : ¬cond3_0 i) (hc1 : ¬cond3_1 i) (xs0 : Vec F S512x1024 .f32) :
    sout3_B_0 c i arg3 harg3 arg4 harg4 arg5 harg5 arg6 harg6 arg7 harg7 arg8 harg8 x0 x1 x2 x3 hc0 hc1 xs0 = k3_pay2 x0 x1 x2 x3 xs0 := by
  unfold sout3_B_0
  rw [View.read_writes_eq_canon _ _ _ (scover3_B_0 c i arg3 harg3 arg4 harg4 arg5 harg5 arg6 harg6 arg7 harg7 arg8 harg8 x0 x1 x2 x3 hc0 hc1 xs0)]
  unfold kernelRun3_B
  dsimp only
  sl_unfold_words
  rw [View.canon_unit_zero zeros2]
  simp only [View.readAt_eq_ld, harg3.read_unread, harg4.read_unread, harg5.read_unread, harg6.read_unread, harg8.read_unread,
    View.ld_unit_zero (S := S1x512x1024) zeros3, View.ld_unit_zero (S := S1x512x512) zeros3, View.ld_unit_zero (S := S512x1024) zeros2]

/-- The last point (key tile 3): the accumulator is left at the accumulate step over what it held. -/
theorem acc_last (hc0 : ¬cond3_0 i) (hc1 : cond3_1 i) (xs0 : Vec F S512x1024 .f32) :
    sout3_C_0 c i arg3 harg3 arg4 harg4 arg5 harg5 arg6 harg6 arg7 harg7 arg8 harg8 x0 x1 x2 x3 hc0 hc1 xs0 = k3_pay2 x0 x1 x2 x3 xs0 := by
  unfold sout3_C_0
  rw [View.read_writes_eq_canon _ _ _ (scover3_C_0 c i arg3 harg3 arg4 harg4 arg5 harg5 arg6 harg6 arg7 harg7 arg8 harg8 x0 x1 x2 x3 hc0 hc1 xs0)]
  unfold kernelRun3_C
  dsimp only
  sl_unfold_words
  rw [View.canon_unit_zero zeros2]
  simp only [View.readAt_eq_ld, harg3.read_unread, harg4.read_unread, harg5.read_unread, harg6.read_unread, harg8.read_unread,
    View.ld_unit_zero (S := S1x512x1024) zeros3, View.ld_unit_zero (S := S1x512x512) zeros3, View.ld_unit_zero (S := S512x1024) zeros2]

/-- The first point (key tile 0): the reset's value is what the accumulate step reads back, whatever the accumulator held. -/
theorem acc_first (hc0 : cond3_0 i) (hc1 : ¬cond3_1 i) :
    sout3_A_0 c i arg3 harg3 arg4 harg4 arg5 harg5 arg6 harg6 arg7 harg7 arg8 harg8 x0 x1 x2 x3 hc0 hc1 = k3_pay2 x0 x1 x2 x3 k3_pay1 := by
  unfold sout3_A_0
  rw [View.read_writes_eq_canon _ _ _ (scover3_A_0 c i arg3 harg3 arg4 harg4 arg5 harg5 arg6 harg6 arg7 harg7 arg8 harg8 x0 x1 x2 x3 hc0 hc1)]
  unfold kernelRun3_A
  dsimp only
  sl_unfold_words
  rw [View.canon_cons_unit_zero (S := S512x1024) zeros2, View.readCov_unit_zero (S := S512x1024) _ zeros2]
  simp only [View.readAt_eq_ld, harg3.read_unread, harg4.read_unread, harg5.read_unread, harg6.read_unread,
    View.ld_unit_zero (S := S1x512x1024) zeros3, View.ld_unit_zero (S := S1x512x512) zeros3]

/-- The last point's output tile: the emit step's value of the accumulator just stored. -/
theorem out_last (hc0 : ¬cond3_0 i) (hc1 : cond3_1 i) (xs0 : Vec F S512x1024 .f32) :
    out3_C_4 c i arg3 harg3 arg4 harg4 arg5 harg5 arg6 harg6 arg7 harg7 arg8 harg8 x0 x1 x2 x3 hc0 hc1 xs0 = k3_pay3 (k3_pay2 x0 x1 x2 x3 xs0) := by
  unfold out3_C_4
  rw [View.read_writes_eq_canon _ _ _ (cover3_C_4 c i arg3 harg3 arg4 harg4 arg5 harg5 arg6 harg6 arg7 harg7 arg8 harg8 x0 x1 x2 x3 hc0 hc1 xs0)]
  unfold kernelRun3_C
  dsimp only
  sl_unfold_words
  rw [View.canon_unit_zero zeros3]
  simp only [View.readAt_eq_ld, harg3.read_unread, harg4.read_unread, harg5.read_unread, harg6.read_unread, harg8.read_unread,
    View.readCov_unit_zero (S := S512x1024) _ zeros2,
    View.ld_unit_zero (S := S1x512x1024) zeros3, View.ld_unit_zero (S := S1x512x512) zeros3, View.ld_unit_zero (S := S512x1024) zeros2]

end Pieces

end Cert.KernelIdeal.Hand

end
-- ==== Proof.KI.AttnValueBlocks.lean ====
/-
  Where the attention call's windows sit in their arrays, by arithmetic on the grid point alone. Point t of the 4 × 4 × 4
  grid (key tile fastest) is batch t / 16, query tile (t / 4) mod 4, key tile t mod 4. The query block at t is rows
  [512 i, 512 i + 512) of batch β of the query array; the key and value blocks are rows [512 j, 512 j + 512) of batch β of
  theirs; the mask block is rows [512 i, …) and columns [512 j, …) of the one mask plane; the output block is rows
  [512 i, …) of batch β of the result. A block's coordinate in its array is always (block index) × (block size) + the
  coordinate inside the block. The result array is covered by the sixteen points with key tile 3, which are the ones
  that write back: row s of batch b lies in the block of the point with β = b, i = s / 512, j = 3.
-/
import proofs.«135758_j57062935495338_1_alg».proof.Proof.KI.AttnRuns
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The blocks and the arrays, at their literal types -/

/-- The query block at point `t`. -/
abbrev qblk (c : Dev nD) (t : Fin cfg3.N) : Vec F S1x512x1024 .bf16 := iblk3 V c 0 t
/-- The key block at point `t`. -/
abbrev kblk (c : Dev nD) (t : Fin cfg3.N) : Vec F S1x512x1024 .bf16 := iblk3 V c 1 t
/-- The value block at point `t`. -/
abbrev vblk (c : Dev nD) (t : Fin cfg3.N) : Vec F S1x512x1024 .bf16 := iblk3 V c 2 t
/-- The mask block at point `t`. -/
abbrev mblk (c : Dev nD) (t : Fin cfg3.N) : Vec F S1x512x512 .f32 := iblk3 V c 3 t
/-- The projected queries as the region finds them. -/
abbrev qarr (c : Dev nD) : Vec F S4x2048x1024 .bf16 := V c main_v10
/-- The projected keys. -/
abbrev karr (c : Dev nD) : Vec F S4x2048x1024 .bf16 := V c main_v12
/-- The projected values. -/
abbrev varr (c : Dev nD) : Vec F S4x2048x1024 .bf16 := V c main_v14
/-- The mask. -/
abbrev marr (c : Dev nD) : Vec F S1x2048x2048 .f32 := V c main_arg3

/-! ## A point's batch, query rows and key rows -/

/-- The batch of point `t`. -/
def batchOf (t : Fin cfg3.N) : Fin 4 := ⟨t.val / 16, by have := t.isLt; have : cfg3.N = 64 := N_3; omega⟩
/-- Row `r` of point `t`'s query tile, as a row of the array. -/
def qrow (t : Fin cfg3.N) (r : Fin 512) : Fin 2048 := ⟨t.val / 4 % 4 * 512 + r.val, by omega⟩
/-- Row `κ` of point `t`'s key tile, as a row of the array. -/
def krow (t : Fin cfg3.N) (κ : Fin 512) : Fin 2048 := ⟨t.val % 4 * 512 + κ.val, by omega⟩

/-! ## The index maps over the grid, and membership in the output block -/
namespace Blocks3

/-- The five windows' block indices at point `t`, axis by axis: the query and output windows sit at (batch, query tile,
    0), the key and value windows at (batch, key tile, 0), the mask window at (0, query tile, key tile). -/
theorem idx_facts : ∀ t : Fin cfg3.N,
    win3_0.index t (0 : Fin 3) = t.val / 16 ∧ win3_0.index t (1 : Fin 3) = t.val / 4 % 4 ∧ win3_0.index t (2 : Fin 3) = 0
    ∧ win3_1.index t (0 : Fin 3) = t.val / 16 ∧ win3_1.index t (1 : Fin 3) = t.val % 4 ∧ win3_1.index t (2 : Fin 3) = 0
    ∧ win3_2.index t (0 : Fin 3) = t.val / 16 ∧ win3_2.index t (1 : Fin 3) = t.val % 4 ∧ win3_2.index t (2 : Fin 3) = 0
    ∧ win3_3.index t (0 : Fin 3) = 0 ∧ win3_3.index t (1 : Fin 3) = t.val / 4 % 4 ∧ win3_3.index t (2 : Fin 3) = t.val % 4
    ∧ win3_4.index t (0 : Fin 3) = t.val / 16 ∧ win3_4.index t (1 : Fin 3) = t.val / 4 % 4 ∧ win3_4.index t (2 : Fin 3) = 0 :=
  (by decide +kernel : ∀ t : Fin grid3.N, _)

/-- An index of the result array is in point `t`'s output block iff each coordinate is in the block's range on its axis. -/
theorem mem_blk (t : Fin cfg3.N) (i : S4x2048x1024.Idx) :
    i ∈ ((cfg3.win 4).blk t).view.set ↔ ∀ a : Fin 3, win3_4.index t a * S1x512x1024.size a ≤ (i a).val ∧ (i a).val < win3_4.index t a * S1x512x1024.size a + S1x512x1024.size a := by
  show i ∈ ((View.whole main_v15).slice (win3_4.rect t)).set ↔ _
  rw [View.set_slice_whole, Rect.mem_set_unit]
  exact Iff.rfl

end Blocks3

/-! ## The input blocks read at an index -/

theorem qblk_apply (c : Dev nD) (t : Fin cfg3.N) (r : Fin 512) (d : Fin 1024) :
    qblk V c t (ix3 0 r d) = qarr V c (ix3 (batchOf t) (qrow t r) d) := by
  obtain ⟨e0, e1, e2, -⟩ := Blocks3.idx_facts t
  unfold qblk iblk3
  rw [View.read_apply]
  show V c main_v10 _ = V c main_v10 _
  congr 1
  funext a
  apply Fin.ext
  match a with
  | ⟨0, _⟩ => show win3_0.index t (0 : Fin 3) * 1 + 1 * 0 = t.val / 16; rw [e0]; omega
  | ⟨1, _⟩ => show win3_0.index t (1 : Fin 3) * 512 + 1 * r.val = t.val / 4 % 4 * 512 + r.val; rw [e1]; omega
  | ⟨2, _⟩ => show win3_0.index t (2 : Fin 3) * 1024 + 1 * d.val = d.val; rw [e2]; omega

theorem kblk_apply (c : Dev nD) (t : Fin cfg3.N) (κ : Fin 512) (d : Fin 1024) :
    kblk V c t (ix3 0 κ d) = karr V c (ix3 (batchOf t) (krow t κ) d) := by
  obtain ⟨-, -, -, e0, e1, e2, -⟩ := Blocks3.idx_facts t
  unfold kblk iblk3
  rw [View.read_apply]
  show V c main_v12 _ = V c main_v12 _
  congr 1
  funext a
  apply Fin.ext
  match a with
  | ⟨0, _⟩ => show win3_1.index t (0 : Fin 3) * 1 + 1 * 0 = t.val / 16; rw [e0]; omega
  | ⟨1, _⟩ => show win3_1.index t (1 : Fin 3) * 512 + 1 * κ.val = t.val % 4 * 512 + κ.val; rw [e1]; omega
  | ⟨2, _⟩ => show win3_1.index t (2 : Fin 3) * 1024 + 1 * d.val = d.val; rw [e2]; omega

theorem vblk_apply (c : Dev nD) (t : Fin cfg3.N) (κ : Fin 512) (e : Fin 1024) :
    vblk V c t (ix3 0 κ e) = varr V c (ix3 (batchOf t) (krow t κ) e) := by
  obtain ⟨-, -, -, -, -, -, e0, e1, e2, -⟩ := Blocks3.idx_facts t
  unfold vblk iblk3
  rw [View.read_apply]
  show V c main_v14 _ = V c main_v14 _
  congr 1
  funext a
  apply Fin.ext
  match a with
  | ⟨0, _⟩ => show win3_2.index t (0 : Fin 3) * 1 + 1 * 0 = t.val / 16; rw [e0]; omega
  | ⟨1, _⟩ => show win3_2.index t (1 : Fin 3) * 512 + 1 * κ.val = t.val % 4 * 512 + κ.val; rw [e1]; omega
  | ⟨2, _⟩ => show win3_2.index t (2 : Fin 3) * 1024 + 1 * e.val = e.val; rw [e2]; omega

theorem mblk_apply (c : Dev nD) (t : Fin cfg3.N) (r : Fin 512) (κ : Fin 512) :
    mblk V c t (ix3 0 r κ) = marr V c (ix3 0 (qrow t r) (krow t κ)) := by
  obtain ⟨-, -, -, -, -, -, -, -, -, e0, e1, e2, -⟩ := Blocks3.idx_facts t
  unfold mblk iblk3
  rw [View.read_apply]
  show V c main_arg3 _ = V c main_arg3 _
  congr 1
  funext a
  apply Fin.ext
  match a with
  | ⟨0, _⟩ => show win3_3.index t (0 : Fin 3) * 1 + 1 * 0 = 0; rw [e0]
  | ⟨1, _⟩ => show win3_3.index t (1 : Fin 3) * 512 + 1 * r.val = t.val / 4 % 4 * 512 + r.val; rw [e1]; omega
  | ⟨2, _⟩ => show win3_3.index t (2 : Fin 3) * 512 + 1 * κ.val = t.val % 4 * 512 + κ.val; rw [e2]; omega

/-! ## The output block in the result array, and the cover -/

/-- Where index (0, r, e) of point `t`'s output block sits in the result array. -/
theorem out_emb (t : Fin cfg3.N) (r : Fin 512) (e : Fin 1024) :
    (((cfg3.win 4).blk t).view.emb (ix3 (0 : Fin 1) r e) : S4x2048x1024.Idx) = ix3 (batchOf t) (qrow t r) e := by
  obtain ⟨-, -, -, -, -, -, -, -, -, -, -, -, e0, e1, e2⟩ := Blocks3.idx_facts t
  funext a
  apply Fin.ext
  match a with
  | ⟨0, _⟩ => show win3_4.index t (0 : Fin 3) * 1 + 1 * 0 = t.val / 16; rw [e0]; omega
  | ⟨1, _⟩ => show win3_4.index t (1 : Fin 3) * 512 + 1 * r.val = t.val / 4 % 4 * 512 + r.val; rw [e1]; omega
  | ⟨2, _⟩ => show win3_4.index t (2 : Fin 3) * 1024 + 1 * e.val = e.val; rw [e2]; omega

/-- Every index of the result array lies in the block of a point that writes back. -/
theorem out_cover (idx : S4x2048x1024.Idx) :
    ∃ t : Fin cfg3.N, (cfg3.win 4).flush t = true ∧ idx ∈ ((cfg3.win 4).blk t).view.set := by
  have h0 : (idx 0).val < 4 := (idx 0).isLt
  have h1 : (idx 1).val < 2048 := (idx 1).isLt
  have h2 : (idx 2).val < 1024 := (idx 2).isLt
  have hN : cfg3.N = 64 := N_3
  have ht : 16 * (idx 0).val + 4 * ((idx 1).val / 512) + 3 < cfg3.N := by omega
  obtain ⟨-, -, -, -, -, -, -, -, -, -, -, -, e0, e1, e2⟩ := Blocks3.idx_facts ⟨16 * (idx 0).val + 4 * ((idx 1).val / 512) + 3, ht⟩
  refine ⟨⟨16 * (idx 0).val + 4 * ((idx 1).val / 512) + 3, ht⟩, (flush3_4 _).2 (by show (16 * (idx 0).val + 4 * ((idx 1).val / 512) + 3) % 4 = 3; omega), ?_⟩
  rw [Blocks3.mem_blk]
  intro a
  match a with
  | ⟨0, _⟩ =>
    show win3_4.index ⟨16 * (idx 0).val + 4 * ((idx 1).val / 512) + 3, ht⟩ (0 : Fin 3) * 1 ≤ (idx 0).val ∧ (idx 0).val < win3_4.index ⟨16 * (idx 0).val + 4 * ((idx 1).val / 512) + 3, ht⟩ (0 : Fin 3) * 1 + 1
    rw [e0]; show (16 * (idx 0).val + 4 * ((idx 1).val / 512) + 3) / 16 * 1 ≤ (idx 0).val ∧ (idx 0).val < (16 * (idx 0).val + 4 * ((idx 1).val / 512) + 3) / 16 * 1 + 1; omega
  | ⟨1, _⟩ =>
    show win3_4.index ⟨16 * (idx 0).val + 4 * ((idx 1).val / 512) + 3, ht⟩ (1 : Fin 3) * 512 ≤ (idx 1).val ∧ (idx 1).val < win3_4.index ⟨16 * (idx 0).val + 4 * ((idx 1).val / 512) + 3, ht⟩ (1 : Fin 3) * 512 + 512
    rw [e1]; show (16 * (idx 0).val + 4 * ((idx 1).val / 512) + 3) / 4 % 4 * 512 ≤ (idx 1).val ∧ (idx 1).val < (16 * (idx 0).val + 4 * ((idx 1).val / 512) + 3) / 4 % 4 * 512 + 512; omega
  | ⟨2, _⟩ =>
    show win3_4.index ⟨16 * (idx 0).val + 4 * ((idx 1).val / 512) + 3, ht⟩ (2 : Fin 3) * 1024 ≤ (idx 2).val ∧ (idx 2).val < win3_4.index ⟨16 * (idx 0).val + 4 * ((idx 1).val / 512) + 3, ht⟩ (2 : Fin 3) * 1024 + 1024
    rw [e2]; omega

end Cert.KernelIdeal.Hand

end
-- ==== Proof.KI.AttnPay.lean ====
/-
  The attention body's three stored values read at an index, at the ideal instance, over any contents of its input
  blocks. The reset stores zero. The accumulate step stores, at row r and column e of the 512 × 1024 accumulator,
      acc(r, e) + ∑ κ', (max (∑ d, q(r, d) · k(κ', d)) 0 · 2⁻⁵ + mask(r, κ')) · v(κ', e)
  (the query tile times the transposed key tile as a sum over the 1024 features, relu, the scale, the mask tile added, a
  change of float format that is the identity here, then the product with the value tile as a sum over the tile's 512
  keys, added to what the accumulator held). The emit step stores max (acc(r, e)) 0.
-/
import proofs.«135758_j57062935495338_1_alg».proof.Proof.Gen.KernelIdeal.Skeleton
import proofs.«135758_j57062935495338_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx Idealize.SL.Sem

/-- The reset value is zero everywhere. -/
theorem pay1_apply (r : Fin 512) (e : Fin 1024) : k3_pay1 (F := Ideal) (ix2 r e) = (0 : EReal) := by
  unfold k3_pay1
  -- a cast to the same shape of the splat of the word +0.0
  refine (congrFun (shapeCast_self _ _) _).trans ?_
  exact Ideal.ofBits_zero_f32

/-! ### The first product: query tile times transposed key tile
  The product's operand indices at output (r, κ) and contraction index d are (r, d) on the left and (d, κ) on the right;
  the four coordinate facts are read off the dimension numbers (contract axis 1 of the left with axis 0 of the right,
  no batch axis). -/

/-- The left index keeps the output's row. -/
theorem lhs1_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- The left index's column is the contraction index. -/
theorem lhs1_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- The right index's row is the contraction index. -/
theorem rhs1_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- The right index keeps the output's column. -/
theorem rhs1_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Into a zero accumulator the first product is the plain sum over the 1024 contracted positions. -/
theorem mm1_apply (a : FVec Ideal S512x1024 .bf16) (b : FVec Ideal S1024x512 .bf16) (r κ : Fin 512) :
    matmul dot_S512x1024_S1024x512_S512x512_1_0_0_1_n_n none a b (constant S512x512 .f32 0x00000000#32) (ix2 r κ)
      = ∑ d : Fin 1024, a (ix2 r d) * b (ix2 d κ) := by
  refine (Ideal.matmul_constant_zero_apply dot_S512x1024_S1024x512_S512x512_1_0_0_1_n_n none a b (ix2 r κ)).trans ?_
  rw [← Equiv.sum_comp (contrEquiv1 dot_S512x1024_S1024x512_S512x512_1_0_0_1_n_n 1024 rfl rfl).symm]
  refine Finset.sum_congr rfl fun d _ => ?_
  have hk := contrEquiv1_symm_val dot_S512x1024_S1024x512_S512x512_1_0_0_1_n_n 1024 rfl rfl d
  have el : dot_S512x1024_S1024x512_S512x512_1_0_0_1_n_n.lhsIdx (ix2 r κ) ((contrEquiv1 dot_S512x1024_S1024x512_S512x512_1_0_0_1_n_n 1024 rfl rfl).symm d) = ix2 r d := funext fun a => Fin.ext (by
    match a with
    | ⟨0, _⟩ => exact lhs1_0 _ _
    | ⟨1, _⟩ => exact (lhs1_1 _ _).trans hk)
  have er : dot_S512x1024_S1024x512_S512x512_1_0_0_1_n_n.rhsIdx (ix2 r κ) ((contrEquiv1 dot_S512x1024_S1024x512_S512x512_1_0_0_1_n_n 1024 rfl rfl).symm d) = ix2 d κ := funext fun a => Fin.ext (by
    match a with
    | ⟨0, _⟩ => exact (rhs1_0 _ _).trans hk
    | ⟨1, _⟩ => exact rhs1_1 _ _)
  rw [el, er]

/-- The score of query row `r` against key row `κ` of the tile: the two blocks lose their unit axis, the key block is
    transposed, and the product into a zero accumulator is the sum over the 1024 features. -/
theorem scores_apply (a b : FVec Ideal S1x512x1024 .bf16) (r κ : Fin 512) :
    matmul dot_S512x1024_S1024x512_S512x512_1_0_0_1_n_n none (shapeCast S512x1024 a shapeCasts_S1x512x1024_S512x1024)
        (transpose S1024x512 [1, 0] (shapeCast S512x1024 b shapeCasts_S1x512x1024_S512x1024) transposes_S512x1024_p1_0_S1024x512)
        (constant S512x512 .f32 0x00000000#32) (ix2 r κ)
      = ∑ d : Fin 1024, a (ix3 0 r d) * b (ix3 0 κ d) := by
  refine (mm1_apply _ _ r κ).trans ?_
  refine Finset.sum_congr rfl fun d _ => ?_
  rw [transpose_ix2_apply, shapeCast_1ab_ab_apply, shapeCast_1ab_ab_apply]

/-! ### The second product: logits times value tile
  The same reading with the contracted axis the tile's 512 keys: (r, κ') on the left, (κ', e) on the right. -/

/-- The left index keeps the output's row. -/
theorem lhs2_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
/-- The left index's column is the contraction index. -/
theorem lhs2_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
/-- The right index's row is the contraction index. -/
theorem rhs2_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
/-- The right index keeps the output's column. -/
theorem rhs2_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- Into a zero accumulator the second product is the plain sum over the 512 contracted positions. -/
theorem mm2_apply (a : FVec Ideal S512x512 .bf16) (b : FVec Ideal S512x1024 .bf16) (r : Fin 512) (e : Fin 1024) :
    matmul dot_S512x512_S512x1024_S512x1024_1_0_0_1_n_n none a b (constant S512x1024 .f32 0x00000000#32) (ix2 r e)
      = ∑ κ' : Fin 512, a (ix2 r κ') * b (ix2 κ' e) := by
  refine (Ideal.matmul_constant_zero_apply dot_S512x512_S512x1024_S512x1024_1_0_0_1_n_n none a b (ix2 r e)).trans ?_
  rw [← Equiv.sum_comp (contrEquiv1 dot_S512x512_S512x1024_S512x1024_1_0_0_1_n_n 512 rfl rfl).symm]
  refine Finset.sum_congr rfl fun d _ => ?_
  have hk := contrEquiv1_symm_val dot_S512x512_S512x1024_S512x1024_1_0_0_1_n_n 512 rfl rfl d
  have el : dot_S512x512_S512x1024_S512x1024_1_0_0_1_n_n.lhsIdx (ix2 r e) ((contrEquiv1 dot_S512x512_S512x1024_S512x1024_1_0_0_1_n_n 512 rfl rfl).symm d) = ix2 r d := funext fun a => Fin.ext (by
    match a with
    | ⟨0, _⟩ => exact lhs2_0 _ _
    | ⟨1, _⟩ => exact (lhs2_1 _ _).trans hk)
  have er : dot_S512x512_S512x1024_S512x1024_1_0_0_1_n_n.rhsIdx (ix2 r e) ((contrEquiv1 dot_S512x512_S512x1024_S512x1024_1_0_0_1_n_n 512 rfl rfl).symm d) = ix2 d e := funext fun a => Fin.ext (by
    match a with
    | ⟨0, _⟩ => exact (rhs2_0 _ _).trans hk
    | ⟨1, _⟩ => exact rhs2_1 _ _)
  rw [el, er]

/-- The logit of query row `r` against key row `κ` of the tile: relu of the score, the scale, the mask tile added. -/
theorem logits_apply (a b : FVec Ideal S1x512x1024 .bf16) (m : FVec Ideal S1x512x512 .f32) (r κ : Fin 512) :
    addf (mulf (maximumf
          (matmul dot_S512x1024_S1024x512_S512x512_1_0_0_1_n_n none (shapeCast S512x1024 a shapeCasts_S1x512x1024_S512x1024)
            (transpose S1024x512 [1, 0] (shapeCast S512x1024 b shapeCasts_S1x512x1024_S512x1024) transposes_S512x1024_p1_0_S1024x512)
            (constant S512x512 .f32 0x00000000#32))
          (broadcast S512x512 (Scalar.ofBits (F := Ideal) .f32 0x00000000#32)))
        (broadcast S512x512 (Scalar.ofBits (F := Ideal) .f32 0x3D000000#32)))
      (shapeCast S512x512 m shapeCasts_S1x512x512_S512x512) (ix2 r κ)
      = max (∑ d : Fin 1024, a (ix3 0 r d) * b (ix3 0 κ d)) 0 * Cert.Spec.scale + m (ix3 0 r κ) := by
  rw [addf_apply, mulf_apply, maximumf_apply, scores_apply, shapeCast_1ab_ab_apply, broadcast_apply, broadcast_apply]
  show max _ (Ideal.ofBits .f32 0x00000000#32) * Cert.Spec.scale + _ = _
  rw [Ideal.ofBits_zero_f32]

/-- The accumulate step at row `r`, column `e`. -/
theorem pay2_apply (x0 x1 x2 : Vec Ideal S1x512x1024 .bf16) (x3 : Vec Ideal S1x512x512 .f32) (acc : Vec Ideal S512x1024 .f32)
    (r : Fin 512) (e : Fin 1024) :
    k3_pay2 (F := Ideal) x0 x1 x2 x3 acc (ix2 r e)
      = (acc (ix2 r e) + ∑ κ' : Fin 512,
          (max (∑ d : Fin 1024, x0 (ix3 0 r d) * x1 (ix3 0 κ' d)) 0 * Cert.Spec.scale + x3 (ix3 0 r κ')) * x2 (ix3 0 κ' e) : EReal) := by
  unfold k3_pay2
  -- the outer cast keeps the shape; then the sum of the accumulator and the second product, term by term
  refine (congrFun (shapeCast_self _ _) _).trans ?_
  refine (addf_apply _ _ _).trans ?_
  refine congrArg (acc (ix2 r e) + ·) ?_
  refine (mm2_apply _ _ r e).trans ?_
  refine Finset.sum_congr rfl fun κ' _ => ?_
  refine congrArg₂ (· * ·) ?_ (shapeCast_1ab_ab_apply _ _ κ' e)
  refine (truncf_apply (ψ := .bf16) _ bitsLt_bf16_f32 (ix2 r κ')).trans ?_
  exact logits_apply x0 x1 x3 r κ'

/-- The emit step at row `r`, column `e`. -/
theorem pay3_apply (acc : Vec Ideal S512x1024 .f32) (r : Fin 512) (e : Fin 1024) :
    k3_pay3 (F := Ideal) acc (ix3 0 r e) = (max (acc (ix2 r e)) 0 : EReal) := by
  unfold k3_pay3
  -- the cast adds a unit axis in front; under it, the maximum with the splat of the word +0.0
  refine (shapeCast_ab_1ab_apply _ _ 0 r e).trans ?_
  refine (maximumf_apply _ _ _).trans ?_
  exact congrArg (max (acc (ix2 r e))) Ideal.ofBits_zero_f32

end Cert.KernelIdeal.Hand

end
-- ==== Proof.KI.AttnValueInv.lean ====
/-
  The accumulator within one (batch, query tile): after the point with key tile j it holds, at row r and column e, the sum
  over the key tiles 0..j of the tile's contribution
      ∑ κ' < 512, (max (∑ d, q(β, s, d) · k(β, κ, d)) 0 · 2⁻⁵ + mask(0, s, κ)) · v(β, κ, e),   κ = 512 j' + κ',
  s the query row 512 i + r. By induction on the position: at key tile 0 the reset's zero is what the accumulate step adds
  to; at a later tile the step adds that tile's contribution to what the position before left, and the position before
  lies in the same (batch, query tile). At key tile 3 the output tile is left at max (that sum over all four tiles) 0.
-/
import proofs.«135758_j57062935495338_1_alg».proof.Proof.KI.AttnValuePieces
import proofs.«135758_j57062935495338_1_alg».proof.Proof.KI.AttnValueBlocks
import proofs.«135758_j57062935495338_1_alg».proof.Proof.KI.AttnPay
import proofs.«135758_j57062935495338_1_alg».proof.Proof.Spec

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Key row κ of key tile j' (the tile number read mod 4), as a row of the array. -/
def keyN (j' : ℕ) (κ : Fin 512) : Fin 2048 := ⟨j' % 4 * 512 + κ.val, by have := Nat.mod_lt j' (by decide : 4 > 0); omega⟩

/-- At a point's own key tile these are the point's key rows. -/
theorem keyN_point (t : Fin cfg3.N) (κ : Fin 512) : keyN (t.val % 4) κ = krow t κ :=
  Fin.ext (by simp [keyN, krow, Nat.mod_mod])

/-- For a tile number below four they are the specification's keys. -/
theorem keyN_fin (j : Fin 4) (κ : Fin 512) : keyN j.val κ = Cert.Spec.key j κ :=
  Fin.ext (by simp [keyN, Cert.Spec.key, Nat.mod_eq_of_lt j.isLt])

/-- The score of query row s against key row κ of batch b, over the region's arrays. -/
def logitAt (c : Dev nD) (b : Fin 4) (s κ : Fin 2048) : EReal :=
  Cert.Spec.logit (qarr V c) (karr V c) (marr V c) b s κ

/-- The value entry of key row κ, column e of batch b. -/
def valAt (c : Dev nD) (b : Fin 4) (κ : Fin 2048) (e : Fin 1024) : EReal :=
  varr V c (ix3 b κ e)

/-- One key tile's contribution to row s, column e of batch b. -/
def tileSum (c : Dev nD) (b : Fin 4) (s : Fin 2048) (e : Fin 1024) (j' : ℕ) : EReal :=
  ∑ κ : Fin 512, logitAt V c b s (keyN j' κ) * valAt V c b (keyN j' κ) e

/-- The accumulate step at point t adds the contribution of t's key tile to what the accumulator held: the point's blocks
    are the arrays' rows of its batch, query tile and key tile. -/
theorem step_apply (c : Dev nD) (t : Fin cfg3.N) (acc : Vec Ideal S512x1024 .f32) (r : Fin 512) (e : Fin 1024) :
    (k3_pay2 (F := Ideal) (qblk V c t) (kblk V c t) (vblk V c t) (mblk V c t) acc (ix2 r e) : EReal)
      = acc (ix2 r e) + tileSum V c (batchOf t) (qrow t r) e (t.val % 4) := by
  rw [pay2_apply]
  refine congrArg (fun z : EReal => (acc (ix2 r e) : EReal) + z) ?_
  unfold tileSum
  refine Finset.sum_congr rfl fun κ _ => ?_
  rw [keyN_point]
  unfold logitAt valAt Cert.Spec.logit
  rw [mblk_apply, vblk_apply]
  simp only [qblk_apply, kblk_apply]

/-- At key tile 0 the step adds to the reset's zero: the sum over the one tile so far. -/
theorem first_apply (c : Dev nD) (t : Fin cfg3.N) (h0 : t.val % 4 = 0) (r : Fin 512) (e : Fin 1024) :
    (k3_pay2 (F := Ideal) (qblk V c t) (kblk V c t) (vblk V c t) (mblk V c t) (k3_pay1 (F := Ideal)) (ix2 r e) : EReal)
      = ∑ j' ∈ Finset.range (t.val % 4 + 1), tileSum V c (batchOf t) (qrow t r) e j' := by
  rw [step_apply, pay1_apply, zero_add, h0, Finset.sum_range_one]

/-- At a later key tile the step extends the sum the position before left by one tile: the two positions share their
    batch and their query rows. -/
theorem later_apply (c : Dev nD) (n : ℕ) (hn : n + 1 < cfg3.N) (hne : ¬ (n + 1) % 4 = 0) (acc : Vec Ideal S512x1024 .f32)
    (r : Fin 512) (e : Fin 1024)
    (ih : (acc (ix2 r e) : EReal) = ∑ j' ∈ Finset.range (n % 4 + 1),
      tileSum V c (batchOf ⟨n, Nat.lt_of_succ_lt hn⟩) (qrow ⟨n, Nat.lt_of_succ_lt hn⟩ r) e j') :
    (k3_pay2 (F := Ideal) (qblk V c ⟨n + 1, hn⟩) (kblk V c ⟨n + 1, hn⟩) (vblk V c ⟨n + 1, hn⟩) (mblk V c ⟨n + 1, hn⟩) acc (ix2 r e) : EReal)
      = ∑ j' ∈ Finset.range ((n + 1) % 4 + 1), tileSum V c (batchOf ⟨n + 1, hn⟩) (qrow ⟨n + 1, hn⟩ r) e j' := by
  rw [step_apply, ih]
  have hb : batchOf ⟨n, Nat.lt_of_succ_lt hn⟩ = batchOf ⟨n + 1, hn⟩ := Fin.ext (by show n / 16 = (n + 1) / 16; omega)
  have hq : qrow ⟨n, Nat.lt_of_succ_lt hn⟩ r = qrow ⟨n + 1, hn⟩ r :=
    Fin.ext (by show n / 4 % 4 * 512 + r.val = (n + 1) / 4 % 4 * 512 + r.val; omega)
  have hm : (n + 1) % 4 + 1 = (n % 4 + 1) + 1 := by omega
  have hk : (⟨n + 1, hn⟩ : Fin cfg3.N).val % 4 = n % 4 + 1 := by show (n + 1) % 4 = _; omega
  rw [hb, hq, hm, Finset.sum_range_succ _ (n % 4 + 1), hk]

/-- The invariant at a point with key tile 0. -/
theorem acc_at_first (c : Dev nD) (t : Fin cfg3.N) (h0 : t.val % 4 = 0) (r : Fin 512) (e : Fin 1024) :
    ((outsAt3 V c t.val t.isLt).2 (ix2 r e) : EReal)
      = ∑ j' ∈ Finset.range (t.val % 4 + 1), tileSum V c (batchOf t) (qrow t r) e j' := by
  have h1 : ¬ t.val % 4 = 3 := by omega
  rw [outsAt3_A V c t h0 h1]
  dsimp only [caseA]
  exact (congrFun (acc_first (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) (qblk V c t) (kblk V c t) (vblk V c t) (mblk V c t) ((hcond3_0 t).mpr h0) (fun h => h1 ((hcond3_1 t).mp h))) (ix2 r e)).trans
    (first_apply V c t h0 r e)

/-- THE INVARIANT: the accumulator after position n, at (r, e), is the sum of the contributions of the key tiles up to
    the position's own. -/
theorem acc_inv (c : Dev nD) : ∀ (n : ℕ) (hn : n < cfg3.N) (r : Fin 512) (e : Fin 1024),
    ((outsAt3 V c n hn).2 (ix2 r e) : EReal)
      = ∑ j' ∈ Finset.range (n % 4 + 1), tileSum V c (batchOf ⟨n, hn⟩) (qrow ⟨n, hn⟩ r) e j' := by
  intro n
  induction n with
  | zero =>
    intro hn r e
    exact acc_at_first V c ⟨0, hn⟩ (Nat.zero_mod 4) r e
  | succ n ih =>
    intro hn r e
    by_cases h0 : (n + 1) % 4 = 0
    · exact acc_at_first V c ⟨n + 1, hn⟩ h0 r e
    · by_cases h1 : (n + 1) % 4 = 3
      · rw [outsAt3_C V c ⟨n + 1, hn⟩ h0 h1]
        dsimp only [caseC]
        exact (congrFun (acc_last (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (qblk V c ⟨n + 1, hn⟩) (kblk V c ⟨n + 1, hn⟩) (vblk V c ⟨n + 1, hn⟩) (mblk V c ⟨n + 1, hn⟩) (fun h => h0 ((hcond3_0 ⟨n + 1, hn⟩).mp h)) ((hcond3_1 ⟨n + 1, hn⟩).mpr h1) (outsAt3 V c n (Nat.lt_of_succ_lt hn)).2) (ix2 r e)).trans
          (later_apply V c n hn h0 (outsAt3 V c n (Nat.lt_of_succ_lt hn)).2 r e (ih (Nat.lt_of_succ_lt hn) r e))
      · rw [outsAt3_B V c ⟨n + 1, hn⟩ h0 h1]
        dsimp only [caseB]
        exact (congrFun (acc_mid (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (qblk V c ⟨n + 1, hn⟩) (kblk V c ⟨n + 1, hn⟩) (vblk V c ⟨n + 1, hn⟩) (mblk V c ⟨n + 1, hn⟩) (fun h => h0 ((hcond3_0 ⟨n + 1, hn⟩).mp h)) (fun h => h1 ((hcond3_1 ⟨n + 1, hn⟩).mp h)) (outsAt3 V c n (Nat.lt_of_succ_lt hn)).2) (ix2 r e)).trans
          (later_apply V c n hn h0 (outsAt3 V c n (Nat.lt_of_succ_lt hn)).2 r e (ih (Nat.lt_of_succ_lt hn) r e))

/-- At a point with key tile 3 the output tile is left at max (the sum over all four key tiles) 0. -/
theorem out_inv (c : Dev nD) (t : Fin cfg3.N) (h3 : t.val % 4 = 3) (r : Fin 512) (e : Fin 1024) :
    ((outsAt3 V c t.val t.isLt).1 (ix3 (0 : Fin 1) r e) : EReal)
      = max (∑ j' ∈ Finset.range 4, tileSum V c (batchOf t) (qrow t r) e j') 0 := by
  obtain ⟨n, hn⟩ := t
  cases n with
  | zero => exact absurd h3 (by show ¬ (0 % 4 = 3); decide)
  | succ n =>
    have h3' : (n + 1) % 4 = 3 := h3
    have h0 : ¬ (n + 1) % 4 = 0 := by omega
    have h4 : (n + 1) % 4 + 1 = 4 := by omega
    rw [outsAt3_C V c ⟨n + 1, hn⟩ h0 h3']
    dsimp only [caseC]
    refine (congrFun (out_last (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (qblk V c ⟨n + 1, hn⟩) (kblk V c ⟨n + 1, hn⟩) (vblk V c ⟨n + 1, hn⟩) (mblk V c ⟨n + 1, hn⟩) (fun h => h0 ((hcond3_0 ⟨n + 1, hn⟩).mp h)) ((hcond3_1 ⟨n + 1, hn⟩).mpr h3') (outsAt3 V c n (Nat.lt_of_succ_lt hn)).2) (ix3 (0 : Fin 1) r e)).trans ?_
    rw [pay3_apply, later_apply V c n hn h0 (outsAt3 V c n (Nat.lt_of_succ_lt hn)).2 r e (acc_inv V c n (Nat.lt_of_succ_lt hn) r e), h4]

end Cert.KernelIdeal.Hand

end
-- ==== Proof.KI.AttnValue.lean ====
/-
  What the attention call leaves in its result array, at the ideal instance: the whole array after the region is
  `Spec.attn` of the region's four operand arrays, index by index. Within one (batch β, query tile i) the four points
  j = 0..3 carry the accumulator: after point j it holds, at row r and column e, the sum over the keys of tiles 0..j of
  (relu score · 2⁻⁵ + mask) · value (by induction on j: the reset at j = 0, then one tile's sum added per point); at j = 3
  the body stores relu of it into the output tile, which is then written back to rows [512 i, 512 i + 512) of batch β. A sum
  over the 2048 keys is the sum over the four tiles of 512 (`Spec.sum_keys`), and the sixteen written tiles cover the array.
  Here: the closing steps. The specification at (β, s, e), its key sum regrouped by tiles, is max (the four tiles'
  contributions) 0; a point with key tile 3 leaves exactly that in its output tile (the invariant's last case), at the
  place (β, 512 i + r, e) of the array where the tile's entry (0, r, e) sits; the tiles of those points cover the array.
-/
import proofs.«135758_j57062935495338_1_alg».proof.Proof.KI.AttnValueInv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace AttnV

/-- The attention of the four arrays at batch b, query row s, column e: the 2048 keys regrouped as the four tiles of
    512, each tile's sum being that tile's contribution. -/
theorem attn_at (c : Dev nD) (b : Fin 4) (s : Fin 2048) (e : Fin 1024) :
    Cert.Spec.attn (qarr V c) (karr V c) (varr V c) (marr V c) (ix3 b s e)
      = max (∑ j' ∈ Finset.range 4, tileSum V c b s e j') 0 := by
  unfold Cert.Spec.attn
  show max (∑ κ : Fin 2048, logitAt V c b s κ * valAt V c b κ e) 0 = _
  rw [Cert.Spec.sum_keys, Finset.sum_range]
  refine congrArg (fun x => max x 0) ?_
  refine Finset.sum_congr rfl fun j _ => ?_
  unfold tileSum
  refine Finset.sum_congr rfl fun κ _ => ?_
  rw [keyN_fin]

/-- What a point with key tile 3 writes back is its block of the attention of the four arrays. -/
theorem flushed3_eq (c : Dev nD) (t : Fin cfg3.N) (hf : (cfg3.win 4).flush t = true) :
    (dat3 (F := Ideal) V c).flushed 4 t
      = ((cfg3.win 4).blk t).view.read (Elt Ideal) (Cert.Spec.attn (V c main_v10) (V c main_v12) (V c main_v14) (V c main_arg3)) := by
  show (cfg3.win 4).cut (grid3.coords t) ((dat3 V c).after 4 t) = _
  rw [after3_4]
  funext y
  obtain ⟨z, r, e, rfl⟩ : ∃ (z : Fin 1) (r : Fin 512) (e : Fin 1024), y = ix3 z r e := ⟨y 0, y 1, y 2, eq_ix3 y⟩
  obtain rfl : z = 0 := Subsingleton.elim _ _
  rw [View.read_apply]
  refine Eq.trans ?_ (congrArg (Cert.Spec.attn (qarr V c) (karr V c) (varr V c) (marr V c)) (out_emb t r e)).symm
  rw [attn_at]
  exact out_inv V c t ((flush3_4 t).mp hf) r e

end AttnV

open AttnV

/-- The result array after the region is the attention of the arrays the region was entered with. -/
theorem arr3_value (c : Dev nD) :
    (dat3 (F := Ideal) V c).arrAt 4 cfg3.N = Cert.Spec.attn (V c main_v10) (V c main_v12) (V c main_v14) (V c main_arg3) := by
  exact (dat3 (F := Ideal) V c).arrAt_eq_of_cover 4 (Cert.Spec.attn (V c main_v10) (V c main_v12) (V c main_v14) (V c main_arg3))
    (fun t hf => flushed3_eq V c t hf) out_cover

end Cert.KernelIdeal.Hand

end
-- ==== Proof.KI.Glue.lean ====
/-
  The host reshapes around a projection call change nothing of its value: flatten the input rows (β, s) ↦ β · 2048 + s,
  drop the weight's two unit axes, make the bias a row, project on the flattened rows, and unflatten the result — at every
  index (β, s, e) this is the projection `Spec.proj` of the arrays as the caller passed them. A reshape reads its operand
  at the index with the same row-major position.
-/
import proofs.«135758_j57062935495338_1_alg».proof.Proof.Gen.KernelIdeal
import proofs.«135758_j57062935495338_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal.Gen
open Idealize.ShloMosaic Idealize.ShloMosaic.TcCoe Idealize.ShloMosaic.ValueIdx Idealize.SL.Sem

namespace Glue

/-- The flattened row of token `s` of batch `β`: rows are laid out batch after batch, 2048 to a batch. -/
def flatRow (β : Fin 4) (s : Fin 2048) : Fin 8192 := ⟨β.val * 2048 + s.val, by omega⟩

/-- Flattening the two leading axes: position ((β · 2048 + s) · 1024 + d) on both sides. -/
theorem flatten_apply (x : S4x2048x1024.Idx → EReal) (β : Fin 4) (s : Fin 2048) (d : Fin 1024) :
    shapeCast S8192x1024 x shapeCasts_S4x2048x1024_S8192x1024 (ix2 (flatRow β s) d) = x (ix3 β s d) := by
  refine shapeCast_apply x shapeCasts_S4x2048x1024_S8192x1024 (ix2 (flatRow β s) d) (ix3 β s d) ?_
  rewrite [Shape.rowMajor_val_three, Shape.rowMajor_val_two]
  show (β.val * 2048 + s.val) * 1024 + d.val = (β.val * 2048 + s.val) * 1024 + d.val
  rfl

/-- Dropping the weight's two unit axes: both leading coordinates are 0 and add nothing to the position d · 1024 + e. -/
theorem squeeze_apply (w : S1x1x1024x1024.Idx → EReal) (d e : Fin 1024) :
    shapeCast S1024x1024 w shapeCasts_S1x1x1024x1024_S1024x1024 (ix2 d e) = w (ix4 0 0 d e) := by
  refine shapeCast_apply w shapeCasts_S1x1x1024x1024_S1024x1024 (ix2 d e) (ix4 0 0 d e) ?_
  rewrite [Shape.rowMajor_val_four, Shape.rowMajor_val_two]
  show ((0 * 1 + 0) * 1024 + d.val) * 1024 + e.val = d.val * 1024 + e.val
  omega

/-- The bias as a one-row matrix: position e on both sides. -/
theorem row_apply (b : S1024.Idx → EReal) (e : Fin 1024) :
    shapeCast S1x1024 b shapeCasts_S1024_S1x1024 (ix2 0 e) = b (ix1 e) := by
  refine shapeCast_apply b shapeCasts_S1024_S1x1024 (ix2 0 e) (ix1 e) ?_
  rewrite [Shape.rowMajor_val_one, Shape.rowMajor_val_two]
  show e.val = 0 * 1024 + e.val
  omega

/-- Unflattening the rows: the element (β, s, e) is the element (β · 2048 + s, e) of the flat array. -/
theorem unflatten_apply (f : S8192x1024.Idx → EReal) (β : Fin 4) (s : Fin 2048) (e : Fin 1024) :
    shapeCast S4x2048x1024 f shapeCasts_S8192x1024_S4x2048x1024 (ix3 β s e) = f (ix2 (flatRow β s) e) := by
  refine shapeCast_apply f shapeCasts_S8192x1024_S4x2048x1024 (ix3 β s e) (ix2 (flatRow β s) e) ?_
  rewrite [Shape.rowMajor_val_three, Shape.rowMajor_val_two]
  show (β.val * 2048 + s.val) * 1024 + e.val = (β.val * 2048 + s.val) * 1024 + e.val
  rfl

end Glue

open Glue in
/-- Project on the flattened rows, then unflatten: the projection of the arrays as passed. -/
theorem proj_glue (x : S4x2048x1024.Idx → EReal) (w : S1x1x1024x1024.Idx → EReal) (b : S1024.Idx → EReal) :
    shapeCast S4x2048x1024
        (Cert.Spec.proj2 (shapeCast S8192x1024 x shapeCasts_S4x2048x1024_S8192x1024)
          (shapeCast S1024x1024 w shapeCasts_S1x1x1024x1024_S1024x1024)
          (shapeCast S1x1024 b shapeCasts_S1024_S1x1024))
        shapeCasts_S8192x1024_S4x2048x1024
      = Cert.Spec.proj x w b := by
  funext i
  obtain ⟨β, s, e, rfl⟩ : ∃ (β : Fin 4) (s : Fin 2048) (e : Fin 1024), i = ix3 β s e := ⟨i 0, i 1, i 2, eq_ix3 i⟩
  -- the result element (β, s, e) is the flat projection's element (β · 2048 + s, e)
  rw [unflatten_apply]
  -- both sides are relu (∑ d, _ · _ + bias): the coordinates of the two indices compute
  show max (∑ d : Fin 1024,
          shapeCast S8192x1024 x shapeCasts_S4x2048x1024_S8192x1024 (ix2 (flatRow β s) d)
            * shapeCast S1024x1024 w shapeCasts_S1x1x1024x1024_S1024x1024 (ix2 d e)
        + shapeCast S1x1024 b shapeCasts_S1024_S1x1024 (ix2 0 e)) 0
      = max (∑ d : Fin 1024, x (ix3 β s d) * w (ix4 0 0 d e) + b (ix1 e)) 0
  rw [row_apply]
  -- term by term: the flat input at (β · 2048 + s, d) is x (β, s, d), the squeezed weight at (d, e) is w (0, 0, d, e)
  refine congrArg (fun t => max (t + b (ix1 e)) 0) (Finset.sum_congr rfl fun d _ => ?_)
  rw [flatten_apply, squeeze_apply]

end Cert.KernelIdeal.Hand

end
-- ==== Proof.KI.Bridge.lean ====
/-
  The value of the idealized kernel's result, at the ideal instance: the named run ends with the result buffer at the
  attention call's array, which is `Spec.attn` of the arrays that call was entered with; those are the three projection
  calls' arrays reshaped from 8192 rows back to (4, 2048) — each `Spec.proj2` of a flattened input, a squeezed weight and a
  bias row — and the mask argument untouched. Followed back through the fold to the launch memory this is `Spec.G` of the
  ten argument arrays.
-/
import proofs.«135758_j57062935495338_1_alg».proof.Proof.KI.Run
import proofs.«135758_j57062935495338_1_alg».proof.Proof.KI.ProjValue
import proofs.«135758_j57062935495338_1_alg».proof.Proof.KI.AttnValue
import proofs.«135758_j57062935495338_1_alg».proof.Proof.KI.Glue
import proofs.«135758_j57062935495338_1_alg».proof.Proof.Spec
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the nine reshapes before the first call write -/

theorem W1_v0 (c : Dev nD) : W1 m ρ c (Proc.devRef .tc main_v0) = shapeCast _ (m ((c : Thread nD τ).loc main_arg4)) shapeCasts_S1x1x1024x1024_S1024x1024 := by
  show StableHlo.after hostOps0 (W0 m ρ c) (Proc.devRef .tc main_v0) = _
  after_results; rfl
theorem W1_v1 (c : Dev nD) : W1 m ρ c (Proc.devRef .tc main_v1) = shapeCast _ (m ((c : Thread nD τ).loc main_arg5)) shapeCasts_S1x1x1024x1024_S1024x1024 := by
  show StableHlo.after hostOps0 (W0 m ρ c) (Proc.devRef .tc main_v1) = _
  after_results; rfl
theorem W1_v2 (c : Dev nD) : W1 m ρ c (Proc.devRef .tc main_v2) = shapeCast _ (m ((c : Thread nD τ).loc main_arg6)) shapeCasts_S1x1x1024x1024_S1024x1024 := by
  show StableHlo.after hostOps0 (W0 m ρ c) (Proc.devRef .tc main_v2) = _
  after_results; rfl
theorem W1_v3 (c : Dev nD) : W1 m ρ c (Proc.devRef .tc main_v3) = shapeCast _ (m ((c : Thread nD τ).loc main_arg0)) shapeCasts_S4x2048x1024_S8192x1024 := by
  show StableHlo.after hostOps0 (W0 m ρ c) (Proc.devRef .tc main_v3) = _
  after_results; rfl
theorem W1_v4 (c : Dev nD) : W1 m ρ c (Proc.devRef .tc main_v4) = shapeCast _ (m ((c : Thread nD τ).loc main_arg1)) shapeCasts_S4x2048x1024_S8192x1024 := by
  show StableHlo.after hostOps0 (W0 m ρ c) (Proc.devRef .tc main_v4) = _
  after_results; rfl
theorem W1_v5 (c : Dev nD) : W1 m ρ c (Proc.devRef .tc main_v5) = shapeCast _ (m ((c : Thread nD τ).loc main_arg2)) shapeCasts_S4x2048x1024_S8192x1024 := by
  show StableHlo.after hostOps0 (W0 m ρ c) (Proc.devRef .tc main_v5) = _
  after_results; rfl
theorem W1_v6 (c : Dev nD) : W1 m ρ c (Proc.devRef .tc main_v6) = shapeCast _ (m ((c : Thread nD τ).loc main_arg7)) shapeCasts_S1024_S1x1024 := by
  show StableHlo.after hostOps0 (W0 m ρ c) (Proc.devRef .tc main_v6) = _
  after_results; rfl
theorem W1_v7 (c : Dev nD) : W1 m ρ c (Proc.devRef .tc main_v7) = shapeCast _ (m ((c : Thread nD τ).loc main_arg8)) shapeCasts_S1024_S1x1024 := by
  show StableHlo.after hostOps0 (W0 m ρ c) (Proc.devRef .tc main_v7) = _
  after_results; rfl
theorem W1_v8 (c : Dev nD) : W1 m ρ c (Proc.devRef .tc main_v8) = shapeCast _ (m ((c : Thread nD τ).loc main_arg9)) shapeCasts_S1024_S1x1024 := by
  show StableHlo.after hostOps0 (W0 m ρ c) (Proc.devRef .tc main_v8) = _
  after_results; rfl

/-! ## Buffers carried unchanged across a call and the reshape after it -/

theorem W3_of_W1 (c : Dev nD) (r : Ref sig .tc) (h : r ∉ hostOps1_W) (n : ∀ w, Pipeline.arrRef spec0 w ≠ r) :
    W3 m ρ c (Proc.devRef .tc r) = W1 m ρ c (Proc.devRef .tc r) :=
  (StableHlo.after_of_writes_sub hostOps1 _ hostOps1_writes h).trans (W2_of_ne m ρ c r n)
theorem W5_of_W3 (c : Dev nD) (r : Ref sig .tc) (h : r ∉ hostOps2_W) (n : ∀ w, Pipeline.arrRef spec1 w ≠ r) :
    W5 m ρ c (Proc.devRef .tc r) = W3 m ρ c (Proc.devRef .tc r) :=
  (StableHlo.after_of_writes_sub hostOps2 _ hostOps2_writes h).trans (W4_of_ne m ρ c r n)
theorem W7_of_W5 (c : Dev nD) (r : Ref sig .tc) (h : r ∉ hostOps3_W) (n : ∀ w, Pipeline.arrRef spec2 w ≠ r) :
    W7 m ρ c (Proc.devRef .tc r) = W5 m ρ c (Proc.devRef .tc r) :=
  (StableHlo.after_of_writes_sub hostOps3 _ hostOps3_writes h).trans (W6_of_ne m ρ c r n)

/-! ## The reshape after each projection call -/

theorem W3_v10 (c : Dev nD) : W3 m ρ c (Proc.devRef .tc main_v10) = shapeCast _ (W2 m ρ c (Proc.devRef .tc main_v9)) shapeCasts_S8192x1024_S4x2048x1024 := by
  show StableHlo.after hostOps1 (W2 m ρ c) (Proc.devRef .tc main_v10) = _
  after_results; rfl
theorem W5_v12 (c : Dev nD) : W5 m ρ c (Proc.devRef .tc main_v12) = shapeCast _ (W4 m ρ c (Proc.devRef .tc main_v11)) shapeCasts_S8192x1024_S4x2048x1024 := by
  show StableHlo.after hostOps2 (W4 m ρ c) (Proc.devRef .tc main_v12) = _
  after_results; rfl
theorem W7_v14 (c : Dev nD) : W7 m ρ c (Proc.devRef .tc main_v14) = shapeCast _ (W6 m ρ c (Proc.devRef .tc main_v13)) shapeCasts_S8192x1024_S4x2048x1024 := by
  show StableHlo.after hostOps3 (W6 m ρ c) (Proc.devRef .tc main_v14) = _
  after_results; rfl

/-! ## Each projection call's array, from the launch memory -/

/-- The projected queries, flattened: call 0's result array. -/
theorem W2_v9 (c : Dev nD) :
    W2 m ρ c (Proc.devRef .tc main_v9)
      = Cert.Spec.proj2 (shapeCast _ (m ((c : Thread nD τ).loc main_arg0)) shapeCasts_S4x2048x1024_S8192x1024)
          (shapeCast _ (m ((c : Thread nD τ).loc main_arg4)) shapeCasts_S1x1x1024x1024_S1024x1024)
          (shapeCast _ (m ((c : Thread nD τ).loc main_arg7)) shapeCasts_S1024_S1x1024) := by
  refine (W2_arr m ρ c 3).trans ((arr0_value (Vin0 m ρ) c).trans ?_)
  show Cert.Spec.proj2 (W1 m ρ c (Proc.devRef .tc main_v3)) (W1 m ρ c (Proc.devRef .tc main_v0)) (W1 m ρ c (Proc.devRef .tc main_v6)) = _
  rw [W1_v3, W1_v0, W1_v6]

/-- The projected keys, flattened: call 1's result array. -/
theorem W4_v11 (c : Dev nD) :
    W4 m ρ c (Proc.devRef .tc main_v11)
      = Cert.Spec.proj2 (shapeCast _ (m ((c : Thread nD τ).loc main_arg1)) shapeCasts_S4x2048x1024_S8192x1024)
          (shapeCast _ (m ((c : Thread nD τ).loc main_arg5)) shapeCasts_S1x1x1024x1024_S1024x1024)
          (shapeCast _ (m ((c : Thread nD τ).loc main_arg8)) shapeCasts_S1024_S1x1024) := by
  refine (W4_arr m ρ c 3).trans ((arr1_value (Vin1 m ρ) c).trans ?_)
  show Cert.Spec.proj2 (W3 m ρ c (Proc.devRef .tc main_v4)) (W3 m ρ c (Proc.devRef .tc main_v1)) (W3 m ρ c (Proc.devRef .tc main_v7)) = _
  rw [W3_of_W1 m ρ c main_v4 (by decide) (by decide), W3_of_W1 m ρ c main_v1 (by decide) (by decide), W3_of_W1 m ρ c main_v7 (by decide) (by decide),
    W1_v4, W1_v1, W1_v7]

/-- The projected values, flattened: call 2's result array. -/
theorem W6_v13 (c : Dev nD) :
    W6 m ρ c (Proc.devRef .tc main_v13)
      = Cert.Spec.proj2 (shapeCast _ (m ((c : Thread nD τ).loc main_arg2)) shapeCasts_S4x2048x1024_S8192x1024)
          (shapeCast _ (m ((c : Thread nD τ).loc main_arg6)) shapeCasts_S1x1x1024x1024_S1024x1024)
          (shapeCast _ (m ((c : Thread nD τ).loc main_arg9)) shapeCasts_S1024_S1x1024) := by
  refine (W6_arr m ρ c 3).trans ((arr2_value (Vin2 m ρ) c).trans ?_)
  show Cert.Spec.proj2 (W5 m ρ c (Proc.devRef .tc main_v5)) (W5 m ρ c (Proc.devRef .tc main_v2)) (W5 m ρ c (Proc.devRef .tc main_v8)) = _
  rw [W5_of_W3 m ρ c main_v5 (by decide) (by decide), W5_of_W3 m ρ c main_v2 (by decide) (by decide), W5_of_W3 m ρ c main_v8 (by decide) (by decide),
    W3_of_W1 m ρ c main_v5 (by decide) (by decide), W3_of_W1 m ρ c main_v2 (by decide) (by decide), W3_of_W1 m ρ c main_v8 (by decide) (by decide),
    W1_v5, W1_v2, W1_v8]

/-! ## The result -/

/-- The result buffer at the end of the named run is `Spec.G` of the ten argument arrays as launched. -/
theorem result_eq (c : Dev nD) :
    W8 m ρ c (Proc.devRef .tc main_v15)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W8_main_v15 m ρ c).trans ((arr3_value (Vin3 m ρ) c).trans ?_)
  show Cert.Spec.attn (W7 m ρ c (Proc.devRef .tc main_v10)) (W7 m ρ c (Proc.devRef .tc main_v12)) (W7 m ρ c (Proc.devRef .tc main_v14))
      (W7 m ρ c (Proc.devRef .tc main_arg3)) = _
  rw [W7_of_W5 m ρ c main_v10 (by decide) (by decide), W5_of_W3 m ρ c main_v10 (by decide) (by decide), W3_v10, W2_v9,
    W7_of_W5 m ρ c main_v12 (by decide) (by decide), W5_v12, W4_v11,
    W7_v14, W6_v13,
    W7_arg m ρ c main_arg3 (by decide) (by decide) (by decide) (by decide) (by decide) (by decide) (by decide)]
  unfold Cert.Spec.G
  rw [proj_glue, proj_glue, proj_glue]

/-- THE VALUE RUN: from any memory with zero counters the idealized kernel's @main terminates, nothing faulting, with the
    result at `Spec.G` of the arguments and every argument as launched. -/
theorem run_value : θ_run defs (onTc (τ := τ) (main (F := Ideal))) ⟨m, fun _ => 0, ρ⟩ (fun r => ∀ c : Dev nD,
      r.2.mem ((c.tc : Thread nD τ).loc main_v15)
        = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v15 (by decide))).trans (result_eq m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩) (run_named m ρ)

end Cert.KernelIdeal.Hand

end
-- ==== Proof.RefValue.lean ====
/-
  The reference program's result, read one host operation at a time, is the specification `Spec.G` of its ten argument
  arrays, index by index: three einsum projections with bias and relu, the batched score product with relu, the division
  by √1024 (which is the multiplication by 2⁻⁵ on every extended real), the mask added, the batched product with the
  values, relu.
-/
import proofs.«135758_j57062935495338_1_alg».proof.Proof.Gen.ReferenceIdeal.Read
import proofs.«135758_j57062935495338_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ### The first projection
  Output element (β, s, e) contracts row (β, s, ·) of the input with column e of the weight; the weight is read through
  the reshape of [1, 1, 1024, 1024] to [1024, 1024], whose flat position d · 1024 + e splits back into (0, 0, d, e); the
  bias is broadcast along the batch and row axes, so only its coordinate e is read. -/

/-- The left operand of the contraction is read at (β, s, d). -/
theorem lidx3 (β : Fin 4) (s : Fin 2048) (e d : Fin 1024) : lidx_main_v3 (ix3 β s e) d = ix3 β s d :=
  funext fun a => Fin.ext (by match a with | ⟨0, _⟩ => rfl | ⟨1, _⟩ => rfl | ⟨2, _⟩ => rfl)

/-- The right operand, through the reshape, is read at (0, 0, d, e): (d · 1024 + e) / 1024 = d and (d · 1024 + e) % 1024 = e. -/
theorem ridx3 (β : Fin 4) (s : Fin 2048) (e d : Fin 1024) :
    idx_main_v0 (ridx_main_v3 (ix3 β s e) d) = ix4 0 0 d e :=
  funext fun a => Fin.ext (by
    have hd := d.isLt
    have he := e.isLt
    match a with
    | ⟨0, _⟩ => rfl
    | ⟨1, _⟩ => rfl
    | ⟨2, _⟩ => show (d.val * 1024 + e.val) / 1024 % 1024 = d.val; omega
    | ⟨3, _⟩ => show (d.val * 1024 + e.val) % 1024 = e.val; omega)

/-- The two broadcasts of the bias read it at e. -/
theorem bidx3 (β : Fin 4) (s : Fin 2048) (e : Fin 1024) : idx_main_v4 (idx_main_v5 (ix3 β s e)) = ix1 e :=
  funext fun a => Fin.ext (by match a with | ⟨0, _⟩ => rfl)

/-- The first projection stage at (β, s, e): relu of the contraction plus the bias; the relu's zero is the word +0.0. -/
theorem v7_at (x0 : (⟨S4x2048x1024, .f32⟩ : BufTy).Contents (Elt Ideal)) (x4 : (⟨S1x1x1024x1024, .f32⟩ : BufTy).Contents (Elt Ideal))
    (x7 : (⟨S1024, .f32⟩ : BufTy).Contents (Elt Ideal)) (β : Fin 4) (s : Fin 2048) (e : Fin 1024) :
    val_main_v7 (F := Ideal) x0 x4 x7 (ix3 β s e) = Cert.Spec.proj x0 x4 x7 (ix3 β s e) := by
  rw [val_main_v7_apply, val_main_v6_apply, val_main_v3_apply, val_main_v5_apply, val_main_v4_apply,
    val_main_call0_v0_apply, val_main_call0_cst_apply]
  simp only [val_main_v0_apply, lidx3, ridx3, bidx3, Ideal.maximumf_def, Ideal.addf_def, Ideal.ofBits_def,
    Ideal.ofBits_zero_f32]
  rfl

/-! ### The other two projections
  They are the same composite of operations applied to other arguments, so the first one's reading serves all three. -/

/-- The key projection is the query projection's term at the key arguments. -/
theorem v12_eq_v7 (x1 : (⟨S4x2048x1024, .f32⟩ : BufTy).Contents (Elt Ideal)) (x5 : (⟨S1x1x1024x1024, .f32⟩ : BufTy).Contents (Elt Ideal))
    (x8 : (⟨S1024, .f32⟩ : BufTy).Contents (Elt Ideal)) :
    val_main_v12 (F := Ideal) x1 x5 x8 = val_main_v7 (F := Ideal) x1 x5 x8 := rfl

/-- The value projection is the query projection's term at the value arguments. -/
theorem v17_eq_v7 (x2 : (⟨S4x2048x1024, .f32⟩ : BufTy).Contents (Elt Ideal)) (x6 : (⟨S1x1x1024x1024, .f32⟩ : BufTy).Contents (Elt Ideal))
    (x9 : (⟨S1024, .f32⟩ : BufTy).Contents (Elt Ideal)) :
    val_main_v17 (F := Ideal) x2 x6 x9 = val_main_v7 (F := Ideal) x2 x6 x9 := rfl

/-! ### The scores
  Batched over β, contracting the feature axis of both projections; then relu, the division by √1024, and the mask,
  which is broadcast along the batch axis. -/

/-- The score (β, s, κ) reads the query projection at (β, s, d). -/
theorem lidx18 (β : Fin 4) (s κ : Fin 2048) (d : Fin 1024) : lidx_main_v18 (ix3 β s κ) d = ix3 β s d :=
  funext fun a => Fin.ext (by match a with | ⟨0, _⟩ => rfl | ⟨1, _⟩ => rfl | ⟨2, _⟩ => rfl)

/-- … and the key projection at (β, κ, d). -/
theorem ridx18 (β : Fin 4) (s κ : Fin 2048) (d : Fin 1024) : ridx_main_v18 (ix3 β s κ) d = ix3 β κ d :=
  funext fun a => Fin.ext (by match a with | ⟨0, _⟩ => rfl | ⟨1, _⟩ => rfl | ⟨2, _⟩ => rfl)

/-- The mask is read at (0, s, κ) for every batch. -/
theorem midx23 (β : Fin 4) (s κ : Fin 2048) : idx_main_v23 (ix3 β s κ) = ix3 0 s κ :=
  funext fun a => Fin.ext (by match a with | ⟨0, _⟩ => rfl | ⟨1, _⟩ => rfl | ⟨2, _⟩ => rfl)

/-- The division by the square root of the word of 1024, with the word read as the extended real it denotes. -/
theorem div_sqrt (x : EReal) : Ideal.div x (Ideal.sqrt (Ideal.ofBits .f32 0x44800000#32)) = x * Cert.Spec.scale :=
  Cert.Spec.div_sqrt_1024 x

/-- The masked, scaled scores, at an index. -/
theorem v24_at (x0 x1 : (⟨S4x2048x1024, .f32⟩ : BufTy).Contents (Elt Ideal)) (x3 : (⟨S1x2048x2048, .f32⟩ : BufTy).Contents (Elt Ideal))
    (x4 x5 : (⟨S1x1x1024x1024, .f32⟩ : BufTy).Contents (Elt Ideal)) (x7 x8 : (⟨S1024, .f32⟩ : BufTy).Contents (Elt Ideal))
    (β : Fin 4) (s κ : Fin 2048) :
    val_main_v24 (F := Ideal) x0 x1 x3 x4 x5 x7 x8 (ix3 β s κ)
      = Cert.Spec.logit (Cert.Spec.proj x0 x4 x7) (Cert.Spec.proj x1 x5 x8) x3 β s κ := by
  rw [val_main_v24_apply, val_main_v22_apply, val_main_v19_apply, val_main_v18_apply, val_main_v21_apply,
    val_main_v20_apply, val_main_cst_apply, val_main_v23_apply, val_main_call3_v0_apply, val_main_call3_cst_apply]
  simp only [lidx18, ridx18, midx23, v12_eq_v7, v7_at, Ideal.maximumf_def, Ideal.addf_def, Ideal.hostDivf_def,
    Ideal.hostUnary_sqrt_def, Ideal.ofBits_def, Ideal.ofBits_zero_f32, div_sqrt]
  rfl

/-! ### The product with the values -/

/-- Output element (β, s, e) reads the scores at (β, s, κ). -/
theorem lidx25 (β : Fin 4) (s κ : Fin 2048) (e : Fin 1024) : lidx_main_v25 (ix3 β s e) κ = ix3 β s κ :=
  funext fun a => Fin.ext (by match a with | ⟨0, _⟩ => rfl | ⟨1, _⟩ => rfl | ⟨2, _⟩ => rfl)

/-- … and the value projection at (β, κ, e). -/
theorem ridx25 (β : Fin 4) (s κ : Fin 2048) (e : Fin 1024) : ridx_main_v25 (ix3 β s e) κ = ix3 β κ e :=
  funext fun a => Fin.ext (by match a with | ⟨0, _⟩ => rfl | ⟨1, _⟩ => rfl | ⟨2, _⟩ => rfl)

/-- The last stage of the reference's run is `Spec.G` of the arguments. -/
theorem ref_eq_G (x0 x1 x2 : (⟨S4x2048x1024, .f32⟩ : BufTy).Contents (Elt Ideal)) (x3 : (⟨S1x2048x2048, .f32⟩ : BufTy).Contents (Elt Ideal))
    (x4 x5 x6 : (⟨S1x1x1024x1024, .f32⟩ : BufTy).Contents (Elt Ideal)) (x7 x8 x9 : (⟨S1024, .f32⟩ : BufTy).Contents (Elt Ideal)) :
    val_main_v26 (F := Ideal) x0 x1 x2 x3 x4 x5 x6 x7 x8 x9 = Cert.Spec.G x0 x1 x2 x3 x4 x5 x6 x7 x8 x9 := by
  -- index by index, with the index split into its three coordinates
  funext i
  obtain ⟨β, s, e, rfl⟩ : ∃ (β : Fin 4) (s : Fin 2048) (e : Fin 1024), i = ix3 β s e := ⟨i 0, i 1, i 2, eq_ix3 i⟩
  rw [val_main_v26_apply, val_main_v25_apply, val_main_call4_v0_apply, val_main_call4_cst_apply]
  simp only [lidx25, ridx25, v17_eq_v7, v7_at, v24_at, Ideal.maximumf_def, Ideal.ofBits_def, Ideal.ofBits_zero_f32]
  rfl

end Cert.ReferenceIdeal.RefValue

end
-- ==== Proof.lean ====
/-
  The certificate: a projection-then-attention kernel (three pallas projection calls, relu (x · W + b), and one tiled
  unnormalised relu-attention call that accumulates over the key tiles in a scratch accumulator) against its plain jnp
  reference, over the extended reals.
  Both programs compute ONE function of the ten argument arrays, `Spec.G`:
      out(β, s, e) = max (∑ κ, (max (∑ d, qp(β,s,d) · kp(β,κ,d)) 0 · 2⁻⁵ + mask(0,s,κ)) · vp(β,κ,e)) 0,
      qp = relu (q · Wq + bq), kp, vp likewise.
  The kernel multiplies the scores by the f32 word of 2⁻⁵ where the reference divides by √1024 = 32: the same number on
  every extended real. The kernel's sum over the 2048 keys is taken tile by tile (four tiles of 512, accumulated in scratch):
  a regrouping of one sum, which needs only that addition is commutative and associative. Changes of float format are the
  identity at this instance. No finiteness of the inputs is used.
  Frames: each kernel program's @main is followed segment by segment (host reshapes, the four calls) with every unscoped
  buffer named at every boundary; no segment writes an argument. The word-level program and its idealization are the same
  text, so one frame proof, generic in the float instance, serves both. The reference's frame is its run with the result
  dropped. The idealization rewrote no operation, so `preserves` asks nothing.
-/
import proofs.«135758_j57062935495338_1_alg».proof.Defs
import proofs.«135758_j57062935495338_1_alg».proof.Proof.Gen.Kernel
import proofs.«135758_j57062935495338_1_alg».proof.Proof.Gen.KernelIdeal
import proofs.«135758_j57062935495338_1_alg».proof.Proof.Gen.ReferenceIdeal
import proofs.«135758_j57062935495338_1_alg».proof.Proof.Gen.ReferenceIdeal.Run
import proofs.«135758_j57062935495338_1_alg».proof.Proof.Gen.ReferenceIdeal.Read
import proofs.«135758_j57062935495338_1_alg».proof.Proof.Gen.Pre_finite_inputs
import proofs.«135758_j57062935495338_1_alg».proof.Proof.K.Run
import proofs.«135758_j57062935495338_1_alg».proof.Proof.KI.Run
import proofs.«135758_j57062935495338_1_alg».proof.Proof.KI.Bridge
import proofs.«135758_j57062935495338_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the result at `Spec.G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Hand.run_value m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9⟩ := hagree c
  rw [(h c).1, Cert.ReferenceIdeal.Read.val_main_v26_eq, Cert.ReferenceIdeal.RefValue.ref_eq_G, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
